-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S50001x256 : Shape := ⟨2, ![50001, 256]⟩
abbrev S262144 : Shape := ⟨1, ![262144]⟩
abbrev S4096 : Shape := ⟨1, ![4096]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S50001x256 : S_.BroadcastsInDim S50001x256 (![] : Fin 0 → Fin S50001x256.rank)
  reducesTo_S50001x256_S_d0_1 : S50001x256.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S262144x256 .f32) (main_arg1 : FVec F S50001x256 .f32) (main_arg2 : IVec S262144 32) (main_arg3 : IVec S4096 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S50001x256 .f32 := Host.absf main_arg1
  let main_cst_0 : FVec F S_ .f32 := constant S_ .f32 0x7F800000#32
  let main_v5 : FVec F S50001x256 .f32 := broadcastInDim S50001x256 ![] bcast_S_S50001x256 main_cst_0
  let main_v6 : IVec S50001x256 1 := cmpf .olt main_v4 main_v5
  let main_c_1 : IVec S_ 1 := constantI S_ 1 1#1
  let main_v7 : IVec S_ 1 := (fun x v => Host.reduce IntOp.andi x v reducesTo_S50001x256_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg3 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  main_v12
-- ==== Kernel.lean ====
abbrev S262144x256 : Shape := ⟨2, ![262144, 256]⟩
abbrev S50001x256 : Shape := ⟨2, ![50001, 256]⟩
abbrev S262144 : Shape := ⟨1, ![262144]⟩
abbrev S4096 : Shape := ⟨1, ![4096]⟩
abbrev S262144x1 : Shape := ⟨2, ![262144, 1]⟩
abbrev S1x4096 : Shape := ⟨2, ![1, 4096]⟩
abbrev S4096x384 : Shape := ⟨2, ![4096, 384]⟩
abbrev S1024x256 : Shape := ⟨2, ![1024, 256]⟩
abbrev S1024x1 : Shape := ⟨2, ![1024, 1]⟩
abbrev S1024x4096 : Shape := ⟨2, ![1024, 4096]⟩
abbrev S1024x128 : Shape := ⟨2, ![1024, 128]⟩
abbrev S1024x384 : Shape := ⟨2, ![1024, 384]⟩
abbrev S4096x256 : Shape := ⟨2, ![4096, 256]⟩
abbrev S4096x1 : Shape := ⟨2, ![4096, 1]⟩
abbrev S_ : Shape := ⟨0, ![]⟩

abbrev nBuf : Space → Nat
  | .hbm => 44
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S50001x256, .f32⟩
  | .hbm, ⟨2, _⟩ => ⟨S262144, .i32⟩
  | .hbm, ⟨3, _⟩ => ⟨S4096, .i32⟩
  | .hbm, ⟨4, _⟩ => ⟨S262144x1, .i32⟩
  | .hbm, ⟨5, _⟩ => ⟨S1x4096, .i32⟩
  | .hbm, ⟨6, _⟩ => ⟨S4096x384, .f32⟩
  | .hbm, ⟨7, _⟩ => ⟨S4096x256, .f32⟩
  | .hbm, ⟨8, _⟩ => ⟨S4096x1, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .i1⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096, .f32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x256, .f32⟩
  | .hbm, ⟨32, _⟩ => ⟨S4096x1, .i1⟩
  | .hbm, ⟨33, _⟩ => ⟨S4096x256, .i1⟩
  | .hbm, ⟨34, _⟩ => ⟨S4096x256, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S50001x256, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S1x4096, .i32⟩
  | .local _ .vmem, ⟨5, _⟩ => ⟨S4096x384, .f32⟩
  | .local _ .vmem, ⟨6, _⟩ => ⟨S4096x384, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S262144_S262144x1 : S262144.ShapeCasts S262144x1
  shapeCasts_S4096_S1x4096 : S4096.ShapeCasts S1x4096
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  iota_S1024x128_d1_w32 : S1024x128.Iotas .tc 32 [1]
  concatenates_S1024x256_S1024x128_S1024x384_d1 : Shape.Concatenates [S1024x256, S1024x128] S1024x384 1
  slices_S4096x384_S4096x256_0_0 : S4096x384.Slices ![0, 0] S4096x256
  slices_S4096x384_S4096x1_0_256 : S4096x384.Slices ![0, 256] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S1024x4096_S1024x384_S4096x384_0_0_1_1_n_n_wf : DotDims.WF S1024x4096 S1024x384 S4096x384 [0] [0] [1] [1] [] []
  gather_S50001x256_S4096x1_S4096x256_1_0_n_n_0_1_1256_wf : GatherDims.WF S50001x256 S4096x1 S4096x256 [1] [0] [] [0] [] 1 ![1, 256]
  scatter_S50001x256_S4096x1_S4096x256_1_0_0_1_wf : ScatterDims.WF S50001x256 S4096x1 S4096x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .i32 = 32 ∨ (Rect.block (s := S1x4096) S1x4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x384.size a ≤ S4096x384.size a
  hwx0_3 : ∀ i : grid0.Coords, EltTy.bits .f32 = 32 ∨ (Rect.block (s := S4096x384) S4096x384.size (cc0_transform_3 i) (hinb0_3 i)).WholeWords (EltTy.packing .f32)

variable [Facts₀]

def dot_S1024x4096_S1024x384_S4096x384_0_0_1_1_n_n : DotDims S1024x4096 S1024x384 S4096x384 where
  lhsContracting := [0]
  rhsContracting := [0]
  lhsNonContracting := [1]
  rhsNonContracting := [1]
  lhsBatch := []
  rhsBatch := []
  wf := dot_S1024x4096_S1024x384_S4096x384_0_0_1_1_n_n_wf
def gather_S50001x256_S4096x1_S4096x256_1_0_n_n_0_1_1256 : GatherDims S50001x256 S4096x1 S4096x256 where
  offsetDims := [1]
  collapsedSliceDims := [0]
  operandBatchingDims := []
  startIndicesBatchingDims := []
  startIndexMap := [0]
  indexVectorDim := 1
  sliceSizes := ![1, 256]
  wf := gather_S50001x256_S4096x1_S4096x256_1_0_n_n_0_1_1256_wf
def scatter_S50001x256_S4096x1_S4096x256_1_0_0_1 : ScatterDims S50001x256 S4096x1 S4096x256 where
  updateWindowDims := [1]
  insertedWindowDims := [0]
  scatterDimsToOperandDims := [0]
  indexVectorDim := 1
  wf := scatter_S50001x256_S4096x1_S4096x256_1_0_0_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x384.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S50001x256 : Shape := ⟨2, ![50001, 256]⟩
abbrev S262144 : Shape := ⟨1, ![262144]⟩
abbrev S4096 : Shape := ⟨1, ![4096]⟩
abbrev S_ : Shape := ⟨0, ![]⟩
abbrev S262144x1 : Shape := ⟨2, ![262144, 1]⟩
abbrev S50001 : Shape := ⟨1, ![50001]⟩
abbrev S50001x1 : Shape := ⟨2, ![50001, 1]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S50001x256, .f32⟩
  | .hbm, ⟨2, _⟩ => ⟨S262144, .i32⟩
  | .hbm, ⟨3, _⟩ => ⟨S4096, .i32⟩
  | .hbm, ⟨4, _⟩ => ⟨S_, .f32⟩
  | .hbm, ⟨5, _⟩ => ⟨S50001x256, .f32⟩
  | .hbm, ⟨6, _⟩ => ⟨S262144x1, .i32⟩
  | .hbm, ⟨7, _⟩ => ⟨S50001x256, .f32⟩
  | .hbm, ⟨8, _⟩ => ⟨S_, .f32⟩
  | .hbm, ⟨9, _⟩ => ⟨S262144, .f32⟩
  | .hbm, ⟨10, _⟩ => ⟨S_, .f32⟩
  | .hbm, ⟨11, _⟩ => ⟨S50001, .f32⟩
  | .hbm, ⟨12, _⟩ => ⟨S262144x1, .i32⟩
  | .hbm, ⟨13, _⟩ => ⟨S50001, .f32⟩
  | .hbm, ⟨14, _⟩ => ⟨S_, .f32⟩
  | .hbm, ⟨15, _⟩ => ⟨S50001, .f32⟩
  | .hbm, ⟨16, _⟩ => ⟨S50001, .i1⟩
  | .hbm, ⟨17, _⟩ => ⟨S_, .f32⟩
  | .hbm, ⟨18, _⟩ => ⟨S_, .f32⟩
  | .hbm, ⟨19, _⟩ => ⟨S50001, .f32⟩
  | .hbm, ⟨20, _⟩ => ⟨S50001, .f32⟩
  | .hbm, ⟨21, _⟩ => ⟨S50001x1, .f32⟩
  | .hbm, ⟨22, _⟩ => ⟨S50001x256, .f32⟩
  | .hbm, ⟨23, _⟩ => ⟨S50001x256, .f32⟩
  | .hbm, ⟨24, _⟩ => ⟨S_, .i1⟩
  | .hbm, ⟨25, _⟩ => ⟨S50001, .i1⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S_, .i1⟩
  | .hbm, ⟨35, _⟩ => ⟨S4096, .i1⟩
  | .hbm, ⟨36, _⟩ => ⟨S50001, .i1⟩
  | .hbm, ⟨37, _⟩ => ⟨S_, .f32⟩
  | .hbm, ⟨38, _⟩ => ⟨S50001, .f32⟩
  | .hbm, ⟨39, _⟩ => ⟨S50001, .i1⟩
  | .hbm, ⟨40, _⟩ => ⟨S50001, .i1⟩
  | .hbm, ⟨41, _⟩ => ⟨S50001x1, .i1⟩
  | .hbm, ⟨42, _⟩ => ⟨S50001x256, .i1⟩
  | .hbm, ⟨43, _⟩ => ⟨S50001x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  bcast_S_S50001x256 : S_.BroadcastsInDim S50001x256 (![] : Fin 0 → Fin S50001x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S50001 : S_.BroadcastsInDim S50001 (![] : Fin 0 → Fin S50001.rank)
  bcast_S50001_S50001x1_0 : S50001.BroadcastsInDim S50001x1 (![0] : Fin 1 → Fin S50001x1.rank)
  bcast_S50001x1_S50001x256_0_1 : S50001x1.BroadcastsInDim S50001x256 (![0, 1] : Fin 2 → Fin S50001x256.rank)
  bcast_S_S4096 : S_.BroadcastsInDim S4096 (![] : Fin 0 → Fin S4096.rank)
  bcast_S4096_S4096x1_0 : S4096.BroadcastsInDim S4096x1 (![0] : Fin 1 → Fin S4096x1.rank)
  scatter_S50001x256_S262144x1_S262144x256_1_0_0_1_wf : ScatterDims.WF S50001x256 S262144x1 S262144x256 [1] [0] [0] 1
  scatter_S50001_S262144x1_S262144_n_0_0_1_wf : ScatterDims.WF S50001 S262144x1 S262144 [] [0] [0] 1
  scatter_S50001_S4096x1_S4096_n_0_0_1_wf : ScatterDims.WF S50001 S4096x1 S4096 [] [0] [0] 1

variable [Facts₀]

def scatter_S50001x256_S262144x1_S262144x256_1_0_0_1 : ScatterDims S50001x256 S262144x1 S262144x256 where
  updateWindowDims := [1]
  insertedWindowDims := [0]
  scatterDimsToOperandDims := [0]
  indexVectorDim := 1
  wf := scatter_S50001x256_S262144x1_S262144x256_1_0_0_1_wf
def scatter_S50001_S262144x1_S262144_n_0_0_1 : ScatterDims S50001 S262144x1 S262144 where
  updateWindowDims := []
  insertedWindowDims := [0]
  scatterDimsToOperandDims := [0]
  indexVectorDim := 1
  wf := scatter_S50001_S262144x1_S262144_n_0_0_1_wf
def scatter_S50001_S4096x1_S4096_n_0_0_1 : ScatterDims S50001 S4096x1 S4096 where
  updateWindowDims := []
  insertedWindowDims := [0]
  scatterDimsToOperandDims := [0]
  indexVectorDim := 1
  wf := scatter_S50001_S4096x1_S4096_n_0_0_1_wf

class Facts : Prop extends Facts₀ where

variable [Facts]
-- ==== Proof.Spec.lean ====
/-
  THE VOCABULARY OF THE VALUE PROOF, over plain functions and the extended reals; no program is imported.

  Rows `n < 262144` of `x` carry a class word `trow n`; query `q < 4096` names the class word `tq q`. The kernel's region leaves, at
  `(q, d)`, the sum over ALL rows of the one-hot weight `[trow n = tq q]` times the row AUGMENTED with a ones column: columns `d < 256`
  are `x`'s, column 256 is the constant one, the rest zero (`sc`). So column `d < 256` of `sc` at `q` is the sum of `x n d` over the rows
  of `q`'s class and column 256 is their number. The reference adds the same rows into class `c`'s entry, a row landing on `c` when its
  word read as a signed integer is `c` (`classSum`, `classCount`). Where the query's word read signed is `c` the two agree, a word being
  determined by its signed reading (`sc_eq_classSum`, `sc_eq_classCount`): zero times anything is zero on the extended reals, so no
  finiteness is used.

  Both programs then apply ONE pointwise rule to (count, sum, fallback): the sum over the count where the count is positive, else the
  fallback (`rowRule`).
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- The shapes, as literals (the programs' own abbreviations unfold to these). -/
abbrev SX : Shape := ⟨2, ![262144, 256]⟩
abbrev SCen : Shape := ⟨2, ![50001, 256]⟩
abbrev SRow : Shape := ⟨1, ![262144]⟩
abbrev STgt : Shape := ⟨1, ![4096]⟩
abbrev SAcc : Shape := ⟨2, ![4096, 384]⟩

/-- The one-hot weight of a row's class word against a query's: one where the words are equal, zero elsewhere. -/
def oh (a b : BitVec 32) : EReal := if a = b then 1 else 0

/-- A row of 256 entries augmented to 384 columns: the row's 256, then a one, then zeros. -/
def augRow (row : Fin 256 → EReal) (d : Fin 384) : EReal :=
  if h : d.val < 256 then row ⟨d.val, h⟩ else if d.val = 256 then 1 else 0

/-- Row `n` of `x` augmented to 384 columns. -/
def aug (x : SX.Idx → EReal) (n : Fin 262144) (d : Fin 384) : EReal :=
  augRow (fun k => x (ix2 n k)) d

/-- What the kernel's region leaves at `(q, d)`: the one-hot weighted sum of the augmented rows. -/
def sc (x : SX.Idx → EReal) (trow : SRow.Idx → BitVec 32) (tq : STgt.Idx → BitVec 32) (q : Fin 4096) (d : Fin 384) : EReal :=
  ∑ n : Fin 262144, oh (trow (ix1 n)) (tq (ix1 q)) * aug x n d

/-- Row `n` lands on class `c`: its class word read as a signed integer is `c`. -/
def lands (a : BitVec 32) (c : Fin 50001) : Prop := a.toInt = (c.val : Int)

instance (a : BitVec 32) (c : Fin 50001) : Decidable (lands a c) := by unfold lands; infer_instance

/-- The sum of column `d` of `x` over the rows landing on class `c`. -/
def classSum (x : SX.Idx → EReal) (trow : SRow.Idx → BitVec 32) (c : Fin 50001) (d : Fin 256) : EReal :=
  ∑ n ∈ Finset.univ.filter (fun n : Fin 262144 => lands (trow (ix1 n)) c), x (ix2 n d)

/-- The number of rows landing on class `c`, as a sum of ones. -/
def classCount (trow : SRow.Idx → BitVec 32) (c : Fin 50001) : EReal :=
  ∑ _n ∈ Finset.univ.filter (fun n : Fin 262144 => lands (trow (ix1 n)) c), (1 : EReal)

/-- A class word equals a query's word that lands on `c` exactly when it lands on `c` itself. -/
theorem eq_iff_lands {a b : BitVec 32} {c : Fin 50001} (hb : lands b c) : a = b ↔ lands a c := by
  unfold lands at *
  constructor
  · intro h; rw [h]; exact hb
  · intro h; exact BitVec.eq_of_toInt_eq (h.trans hb.symm)

/-- Column `d < 256` of the region's result at a query whose word lands on `c`: the class's sum. -/
theorem sc_eq_classSum (x : SX.Idx → EReal) (trow : SRow.Idx → BitVec 32) (tq : STgt.Idx → BitVec 32) (q : Fin 4096)
    (c : Fin 50001) (hq : lands (tq (ix1 q)) c) (d : Fin 256) :
    sc x trow tq q ⟨d.val, by omega⟩ = classSum x trow c d := by
  unfold sc classSum
  rw [Finset.sum_filter]
  refine Finset.sum_congr rfl fun n _ => ?_
  have hd : (⟨d.val, by omega⟩ : Fin 384).val < 256 := d.isLt
  unfold oh aug augRow
  rw [dif_pos hd]
  by_cases h : lands (trow (ix1 n)) c
  · rw [if_pos ((eq_iff_lands hq).2 h), if_pos h, one_mul]
  · rw [if_neg (fun e => h ((eq_iff_lands hq).1 e)), if_neg h, zero_mul]

/-- Column 256 of the region's result at a query whose word lands on `c`: the class's count. -/
theorem sc_eq_classCount (x : SX.Idx → EReal) (trow : SRow.Idx → BitVec 32) (tq : STgt.Idx → BitVec 32) (q : Fin 4096)
    (c : Fin 50001) (hq : lands (tq (ix1 q)) c) :
    sc x trow tq q ⟨256, by omega⟩ = classCount trow c := by
  unfold sc classCount
  rw [Finset.sum_filter]
  refine Finset.sum_congr rfl fun n _ => ?_
  unfold oh aug augRow
  rw [dif_neg (by simp), if_pos rfl]
  by_cases h : lands (trow (ix1 n)) c
  · rw [if_pos ((eq_iff_lands hq).2 h), if_pos h, one_mul]
  · rw [if_neg (fun e => h ((eq_iff_lands hq).1 e)), if_neg h, zero_mul]

/-- The rule both programs apply to a class's count, one of its column sums and a fallback: the sum over the count where the count is
    positive (dividing by one where it is not, which the selection then discards), else the fallback. -/
def rowRule (cnt s fb : EReal) : EReal :=
  if 0 < cnt then Ideal.div s (if 0 < cnt then cnt else 1) else fb

end Cert.Spec

end
-- ==== Proof.KPieces.lean ====
/-
  WHAT THE KERNEL'S REGION LEAVES, AS A RECURSION OVER THE GRID. The body keeps a running total in a scratch buffer: at the first grid
  point it stores zeros there, then at every point it adds that point's product to the scratch and copies the scratch to the output's
  staging buffer. So after point `n` both the scratch and the output's staging buffer hold `acc n`: the update (`k0_pay2`) of the
  point's three input blocks over the total the point before left, starting from the zero block (`k0_pay1`). The output's block index
  never moves and it is written back after the last point only, so the result array ends at `acc 255`.
-/
import proofs.«406712_j1743756722487_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- The three input blocks at grid point `t`, at their literal types: 1024 rows of `x`, their class words as a column, the query words as a row. -/
abbrev xblk (c : Dev nD) (t : Fin cfg0.N) : Vec F S1024x256 .f32 := iblk m c 0 t
abbrev rblk (c : Dev nD) (t : Fin cfg0.N) : Vec F S1024x1 .i32 := iblk m c 1 t
abbrev qblk (c : Dev nD) (t : Fin cfg0.N) : Vec F S1x4096 .i32 := iblk m c 2 t

/-- CASE A (the first point), the scratch: zeros stored, read back, the update stored. -/
theorem sout_A (c : Dev nD) (i : grid0.Coords) (a1 : Memref sig .tc .vmem S1024x256 .f32) (h1 : a1.IsWhole)
    (a2 : Memref sig .tc .vmem S1024x1 .i32) (h2 : a2.IsWhole) (a3 : Memref sig .tc .vmem S1x4096 .i32) (h3 : a3.IsWhole)
    (a4 : Memref sig .tc .vmem S4096x384 .f32) (h4 : a4.IsWhole) (a5 : Memref sig .tc .vmem S4096x384 .f32) (h5 : a5.IsWhole)
    (hc : cond0_0 i) (x0 : Vec F S1024x256 .f32) (x1 : Vec F S1024x1 .i32) (x2 : Vec F S1x4096 .i32) :
    sout0_A_0 c i a1 h1 a2 h2 a3 h3 a4 h4 a5 h5 hc x0 x1 x2 = k0_pay2 x0 x1 x2 (k0_pay1 (F := F)) := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_cons_unit_zero (S := S4096x384) hz]
  simp only [View.readAt_eq_ld, h1.read_unread, h2.read_unread, h3.read_unread,
    View.ld_unit_zero (S := S1024x256) hz, View.ld_unit_zero (S := S1024x1) hz, View.ld_unit_zero (S := S1x4096) hz,
    View.readCov_unit_zero (S := S4096x384) _ hz]

/-- CASE A, the output's staging buffer: the scratch's new contents copied. -/
theorem out_A (c : Dev nD) (i : grid0.Coords) (a1 : Memref sig .tc .vmem S1024x256 .f32) (h1 : a1.IsWhole)
    (a2 : Memref sig .tc .vmem S1024x1 .i32) (h2 : a2.IsWhole) (a3 : Memref sig .tc .vmem S1x4096 .i32) (h3 : a3.IsWhole)
    (a4 : Memref sig .tc .vmem S4096x384 .f32) (h4 : a4.IsWhole) (a5 : Memref sig .tc .vmem S4096x384 .f32) (h5 : a5.IsWhole)
    (hc : cond0_0 i) (x0 : Vec F S1024x256 .f32) (x1 : Vec F S1024x1 .i32) (x2 : Vec F S1x4096 .i32) :
    out0_A_3 c i a1 h1 a2 h2 a3 h3 a4 h4 a5 h5 hc x0 x1 x2 = k0_pay2 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S4096x384) hz, View.readCov_cons_toLoadRect]
  simp only [View.readAt_eq_ld, h1.read_unread, h2.read_unread, h3.read_unread,
    View.ld_unit_zero (S := S1024x256) hz, View.ld_unit_zero (S := S1024x1) hz, View.ld_unit_zero (S := S1x4096) hz,
    View.readCov_unit_zero (S := S4096x384) _ hz]

/-- CASE B (every later point), the scratch holding `xs0`: the update of `xs0` stored. -/
theorem sout_B (c : Dev nD) (i : grid0.Coords) (a1 : Memref sig .tc .vmem S1024x256 .f32) (h1 : a1.IsWhole)
    (a2 : Memref sig .tc .vmem S1024x1 .i32) (h2 : a2.IsWhole) (a3 : Memref sig .tc .vmem S1x4096 .i32) (h3 : a3.IsWhole)
    (a4 : Memref sig .tc .vmem S4096x384 .f32) (h4 : a4.IsWhole) (a5 : Memref sig .tc .vmem S4096x384 .f32) (h5 : a5.IsWhole)
    (hc : ¬cond0_0 i) (x0 : Vec F S1024x256 .f32) (x1 : Vec F S1024x1 .i32) (x2 : Vec F S1x4096 .i32) (xs0 : Vec F S4096x384 .f32) :
    sout0_B_0 c i a1 h1 a2 h2 a3 h3 a4 h4 a5 h5 hc x0 x1 x2 xs0 = k0_pay2 x0 x1 x2 xs0 := by
  unfold sout0_B_0
  rw [View.read_writes_eq_canon _ _ _ (scover0_B_0 c i a1 h1 a2 h2 a3 h3 a4 h4 a5 h5 hc x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S1024x256) hz, View.ld_unit_zero (S := S1024x1) hz, View.ld_unit_zero (S := S1x4096) hz,
    View.ld_unit_zero (S := S4096x384) hz]

/-- CASE B, the output's staging buffer: the scratch's new contents copied. -/
theorem out_B (c : Dev nD) (i : grid0.Coords) (a1 : Memref sig .tc .vmem S1024x256 .f32) (h1 : a1.IsWhole)
    (a2 : Memref sig .tc .vmem S1024x1 .i32) (h2 : a2.IsWhole) (a3 : Memref sig .tc .vmem S1x4096 .i32) (h3 : a3.IsWhole)
    (a4 : Memref sig .tc .vmem S4096x384 .f32) (h4 : a4.IsWhole) (a5 : Memref sig .tc .vmem S4096x384 .f32) (h5 : a5.IsWhole)
    (hc : ¬cond0_0 i) (x0 : Vec F S1024x256 .f32) (x1 : Vec F S1024x1 .i32) (x2 : Vec F S1x4096 .i32) (xs0 : Vec F S4096x384 .f32) :
    out0_B_3 c i a1 h1 a2 h2 a3 h3 a4 h4 a5 h5 hc x0 x1 x2 xs0 = k0_pay2 x0 x1 x2 xs0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero (S := S4096x384) hz, View.readCov_unit_zero (S := S4096x384) _ hz]
  simp only [View.readAt_eq_ld, h1.read_unread, h2.read_unread, h3.read_unread, h5.read_unread,
    View.ld_unit_zero (S := S1024x256) hz, View.ld_unit_zero (S := S1024x1) hz, View.ld_unit_zero (S := S1x4096) hz,
    View.ld_unit_zero (S := S4096x384) hz]

/-- The running total after point `n`. -/
def acc (c : Dev nD) : (n : ℕ) → n < cfg0.N → Vec F S4096x384 .f32
  | 0, h => k0_pay2 (xblk m c ⟨0, h⟩) (rblk m c ⟨0, h⟩) (qblk m c ⟨0, h⟩) (k0_pay1 (F := F))
  | n + 1, h => k0_pay2 (xblk m c ⟨n + 1, h⟩) (rblk m c ⟨n + 1, h⟩) (qblk m c ⟨n + 1, h⟩) (acc c n (Nat.lt_of_succ_lt h))

/-- After point `n` the output's staging buffer and the scratch both hold the running total: by induction on the point. -/
theorem outsAt_eq (c : Dev nD) : ∀ (n : ℕ) (h : n < cfg0.N), outsAt0 m c n h = (acc m c n h, acc m c n h)
  | 0, h => (outsAt0_A m c ⟨0, h⟩ rfl).trans (by rw [out_A, sout_A]; rfl)
  | n + 1, h => by
    have hN : cfg0.N = 256 := N_0
    have hB : ¬(⟨n + 1, h⟩ : Fin cfg0.N).val % 256 = 0 := by dsimp only; omega
    rw [outsAt0_B m c ⟨n + 1, h⟩ hB, out_B, sout_B]
    show (k0_pay2 (xblk m c ⟨n + 1, h⟩) (rblk m c ⟨n + 1, h⟩) (qblk m c ⟨n + 1, h⟩) (outsAt0 m c n (Nat.lt_of_succ_lt h)).2,
        k0_pay2 (xblk m c ⟨n + 1, h⟩) (rblk m c ⟨n + 1, h⟩) (qblk m c ⟨n + 1, h⟩) (outsAt0 m c n (Nat.lt_of_succ_lt h)).2)
      = (acc m c (n + 1) h, acc m c (n + 1) h)
    rw [outsAt_eq c n (Nat.lt_of_succ_lt h)]
    rfl

theorem lt255 : 255 < cfg0.N := by rw [show cfg0.N = 256 from N_0]; decide

/-- The region's result, as contents of the result array. -/
abbrev scArr (c : Dev nD) : Buf (Elt F) ((c : Thread nD τ).loc main_v2) := acc m c 255 lt255

/-- The one write-back, at the last point, writes the running total: the block at index (0, 0), of the array's own shape, read through zero offsets, is the array. -/
theorem flushed_eq (c : Dev nD) (t : Fin cfg0.N) (hf : (cfg0.win 3).flush t = true) :
    (dats m 0 c).flushed 3 t = ((cfg0.win 3).blk t).view.read (Elt F) (scArr m c) := by
  have hN : cfg0.N = 256 := N_0
  have h3 : t.val = 255 := by have := (flush0_3 t).mp hf; have := t.isLt; omega
  obtain rfl : t = ⟨255, lt255⟩ := Fin.ext h3
  show (cfg0.win 3).cut (grid0.coords ⟨255, lt255⟩) ((dats m 0 c).after 3 ⟨255, lt255⟩) = _
  rw [after0_3, outsAt_eq]
  have hz' : (fun a => win0_3.index ⟨255, lt255⟩ a * main_v2.ty.shape.size a) = fun _ => 0 :=
    funext fun a => by fin_cases a <;> decide +kernel
  exact (Memref.read_access_unit_zero (Elt F) main_v2 hz' (fun a => by rw [congrFun hz' a]; simp) (scArr m c)).symm

/-- The result array after the region: the running total after the last point (the one write-back; its block is the whole array). -/
theorem final3 (c : Dev nD) : (dats m 0 c).arrAt 3 cfg0.N = scArr m c :=
  (dats m 0 c).arrAt_eq_of_cover 3 (scArr m c) (flushed_eq m c) fun i =>
    ⟨⟨255, lt255⟩, (flush0_3 ⟨255, lt255⟩).mpr rfl, by
      show i ∈ ((View.whole main_v2).slice (win0_3.rect ⟨255, lt255⟩)).set
      rw [View.set_slice_whole, Rect.mem_set_unit]
      intro a
      have h0 : (i 0 : Nat) < 4096 := (i 0).isLt
      have h1 : (i 1 : Nat) < 384 := (i 1).isLt
      match a with
      | ⟨0, _⟩ =>
        show win0_3.index ⟨255, lt255⟩ 0 * win0_3.size 0 ≤ (i 0 : Nat)
          ∧ (i 0 : Nat) < win0_3.index ⟨255, lt255⟩ 0 * win0_3.size 0 + win0_3.xsize (grid0.coords ⟨255, lt255⟩) 0
        rw [show win0_3.index ⟨255, lt255⟩ 0 * win0_3.size 0 = 0 from by decide +kernel,
          show win0_3.xsize (grid0.coords ⟨255, lt255⟩) 0 = 4096 from by decide +kernel]
        omega
      | ⟨1, _⟩ =>
        show win0_3.index ⟨255, lt255⟩ 1 * win0_3.size 1 ≤ (i 1 : Nat)
          ∧ (i 1 : Nat) < win0_3.index ⟨255, lt255⟩ 1 * win0_3.size 1 + win0_3.xsize (grid0.coords ⟨255, lt255⟩) 1
        rw [show win0_3.index ⟨255, lt255⟩ 1 * win0_3.size 1 = 0 from by decide +kernel,
          show win0_3.xsize (grid0.coords ⟨255, lt255⟩) 1 = 384 from by decide +kernel]
        omega⟩

end Cert.KernelIdeal.KVal

end
-- ==== Proof.KTail.lean ====
/-
  THE KERNEL PROGRAM'S RUN, READ BACK. After the region the program works on the region's result `sc` (4096 × 384), the class table
  `center` and the query words `tgt` with host operations only: columns 0..255 of `sc` are the sums and column 256 the counts; a row's
  new value is the sums over the count where the count is positive, else the table's row at the query's class (read with the index
  wrapped when negative, clamped into the table); the rows are then written into a copy of the table at the queries' classes (index
  wrapped when negative, a row landing outside dropped). `ktail` is that chain as one function; the run ends with the result at `ktail`
  of the region's result, the table and the query words, the arguments unchanged.
-/
import proofs.«406712_j1743756722487_1_alg».proof.Proof.KPieces
import Idealize.ShloMosaic.Lib.StableHlo.Run

noncomputable section

open Idealize.ShloMosaic Idealize.ShloMosaic.TcCoe Idealize.SL.Sem

namespace Cert.KernelIdeal.KTail

open Cert.KernelIdeal

variable {F : FTy → Type} [FloatOps F]

section TheChain
open Cert.KernelIdeal.Facts₀

/-- A query word as a table index: wrapped by the table's height when negative. -/
def wrapIdx (tgt : IVec S4096 32) : IVec S4096x1 32 :=
  broadcastInDim S4096x1 ![0] bcast_S4096_S4096x1_0
    (select (cmpi .slt tgt (broadcastInDim S4096 ![] bcast_S_S4096 (constantI S_ 32 0#32)))
      (addi tgt (broadcastInDim S4096 ![] bcast_S_S4096 (constantI S_ 32 50001#32))) tgt)

/-- The counts: column 256 of the region's result. -/
def cnts (sc : FVec F S4096x384 .f32) : FVec F S4096 .f32 :=
  shapeCast S4096 (extractStridedSlice S4096x1 ![0, 256] sc slices_S4096x384_S4096x1_0_256) shapeCasts_S4096x1_S4096

/-- The new rows: sums over the count where the count is positive, else the table's row at the query's class. -/
def newRows (sc : FVec F S4096x384 .f32) (center : FVec F S50001x256 .f32) (tgt : IVec S4096 32) : FVec F S4096x256 .f32 :=
  select
    (broadcastInDim S4096x256 ![0, 1] bcast_S4096x1_S4096x256_0_1 (broadcastInDim S4096x1 ![0] bcast_S4096_S4096x1_0
      (cmpf (F := F) .ogt (cnts sc) (broadcastInDim S4096 ![] bcast_S_S4096 (constant S_ .f32 0x00000000#32)))))
    (Host.divf (extractStridedSlice S4096x256 ![0, 0] sc slices_S4096x384_S4096x256_0_0)
      (broadcastInDim S4096x256 ![0, 1] bcast_S4096x1_S4096x256_0_1 (broadcastInDim S4096x1 ![0] bcast_S4096_S4096x1_0
        (select (cmpf (F := F) .ogt (cnts sc) (broadcastInDim S4096 ![] bcast_S_S4096 (constant S_ .f32 0x00000000#32))) (cnts sc)
          (broadcastInDim S4096 ![] bcast_S_S4096 (id (constant S_ .f32 0x3F800000#32)))))))
    (Host.gather gather_S50001x256_S4096x1_S4096x256_1_0_n_n_0_1_1256 center (wrapIdx tgt))

/-- The program's result from the region's result, the table and the query words. -/
def ktail (sc : FVec F S4096x384 .f32) (center : FVec F S50001x256 .f32) (tgt : IVec S4096 32) : FVec F S50001x256 .f32 :=
  Host.scatter scatter_S50001x256_S4096x1_S4096x256_1_0_0_1 (fun _ b => b) center (wrapIdx tgt) (newRows sc center tgt)

end TheChain

open Cert.KernelIdeal.Gen Cert.KernelIdeal.KVal

variable (m : (ℓ : Loc nD τ sig) → Buf (Elt F) ℓ) (ρ : Dev nD → PrngReg)

/-- What the lines after the region leave in the result buffer: the chain `ktail` of the region's result array (the running total after
    the last point), the table and the query words as launched (no line before or after the region writes an argument). -/
theorem tail_v29 (c : Dev nD) :
    Pipeline.afterTail₀ cfgs (dats m) 0 (V0 m) [hostOps1, hostOps1_1, hostOps1_2, hostOps1_3, hostOps1_4] c main_v29
      = ktail (scArr m c) (m ((c : Thread nD τ).loc main_arg1)) (m ((c : Thread nD τ).loc main_arg3)) := by
  have e2 : Pipeline.withArrays (cfgs 0).spec c (V0 m c) (fun w => (dats m 0 c).arrAt w (cfgs 0).N) (Proc.devRef .tc main_v2) = scArr m c :=
    (Pipeline.withArrays_arr spec0 launch0.win.arr_inj c _ _ 3).trans (final3 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  simp only [hostOps1, hostOps1_1, hostOps1_2, hostOps1_3, hostOps1_4, List.flatten_cons, List.flatten_nil, List.append_nil,
    List.cons_append, List.nil_append]
  after_results_simp
  rw [e2, e1, e3]
  simp only [StableHlo.TRef.ofBuf, StableHlo.TRef.toBuf, cast_eq]
  rfl

/-- The run, read: the result at `ktail` of the region's result, the table and the query words; the arguments unchanged. -/
theorem run : θ_run defs (onTc (τ := τ) (main (F := F))) ⟨m, fun _ => 0, ρ⟩ fun r => ∀ c : Dev nD,
      r.2.mem ((c : Thread nD τ).loc main_v29)
        = ktail (scArr m c) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v29 (Pipeline.mem_restRefs_of main_v29 (by decide) (by decide))).trans (tail_v29 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KTail

end
-- ==== Proof.KPay.lean ====
/-
  THE BODY'S TWO STORED VALUES AT AN INDEX, over the extended reals. The reset stores zeros. The update stores, at `(q, d)`, the old total
  plus the block's contribution: the product of the one-hot block (row `r` of the class column against query `q`: equal words give one,
  unequal zero, a one-bit compare widened and converted) with the block's rows augmented by a ones column, summed over the block's 1024
  rows; the product contracts the ROW axis of both operands and starts from a zero accumulator, and format changes are the identity.
-/
import proofs.«406712_j1743756722487_1_alg».proof.Proof.Gen.KernelIdeal.Skeleton
import proofs.«406712_j1743756722487_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators
open Idealize.ShloMosaic Idealize.ShloMosaic.ValueIdx

namespace Cert.KernelIdeal.KPay

open Cert.KernelIdeal Cert.KernelIdeal.Gen

/-! ## The one-hot block at an index -/

/-- A one-bit equality test, widened to 32 bits and read as a signed integer, is one where the words are equal and zero elsewhere. -/
private theorem eq_word_value (a b : BitVec 32) :
    (FloatOps.sitofp (F := Ideal) .f32 ((IntOp.cmpi .eq a b).setWidth 32) : EReal) = Cert.Spec.oh a b := by
  unfold Cert.Spec.oh
  by_cases h : a = b
  · have hc : IntOp.cmpi .eq a b = 1#1 := by
      show BitVec.ofBool (a == b) = 1#1
      rw [beq_iff_eq.mpr h]
      rfl
    rw [if_pos h, hc]
    show (((((1#1 : BitVec 1).setWidth 32).toInt : ℤ) : ℝ) : EReal) = 1
    rw [show ((1#1 : BitVec 1).setWidth 32).toInt = 1 by decide, Int.cast_one, EReal.coe_one]
  · have hc : IntOp.cmpi .eq a b = 0#1 := by
      show BitVec.ofBool (a == b) = 0#1
      rw [beq_eq_false_iff_ne.mpr h]
      rfl
    rw [if_neg h, hc]
    show (((((0#1 : BitVec 1).setWidth 32).toInt : ℤ) : ℝ) : EReal) = 0
    rw [show ((0#1 : BitVec 1).setWidth 32).toInt = 0 by decide, Int.cast_zero, EReal.coe_zero]

/-- The one-hot block: the class column against the query row, compared word by word. -/
private def ohv (x1 : Vec Ideal S1024x1 .i32) (x2 : Vec Ideal S1x4096 .i32) : FVec Ideal S1024x4096 .bf16 :=
  truncf .bf16 (sitofp .f32 (extui 32 (cmpi .eq
    (broadcastTo S1024x4096 (shapeCast S1024x1 x1 shapeCasts_S1024x1_S1024x1) broadcasts_S1024x1_S1024x4096)
    (broadcastTo S1024x4096 (shapeCast S1x4096 x2 shapeCasts_S1x4096_S1x4096) broadcasts_S1x4096_S1024x4096)) natLt_1_32)) bitsLt_bf16_f32

/-- The one-hot block at `(r, q)`: one where row `r`'s class word is query `q`'s word, zero elsewhere. -/
private theorem onehot_apply (x1 : Vec Ideal S1024x1 .i32) (x2 : Vec Ideal S1x4096 .i32) (r : Fin 1024) (q : Fin 4096) :
    ohv x1 x2 (ix2 r q) = Cert.Spec.oh (x1 (ix2 r (0 : Fin 1))) (x2 (ix2 (0 : Fin 1) q)) := by
  have h1 : broadcastTo S1024x4096 (shapeCast S1024x1 x1 shapeCasts_S1024x1_S1024x1) broadcasts_S1024x1_S1024x4096 (ix2 r q)
      = x1 (ix2 r (0 : Fin 1)) := by
    rw [shapeCast_self]
    exact broadcastTo_apply x1 _ (ix2 r q) (ix2 r (0 : Fin 1)) (fun a => by
      match a with
      | ⟨0, _⟩ => rfl
      | ⟨1, _⟩ => rfl)
  have h2 : broadcastTo S1024x4096 (shapeCast S1x4096 x2 shapeCasts_S1x4096_S1x4096) broadcasts_S1x4096_S1024x4096 (ix2 r q)
      = x2 (ix2 (0 : Fin 1) q) := by
    rw [shapeCast_self]
    exact broadcastTo_apply x2 _ (ix2 r q) (ix2 (0 : Fin 1) q) (fun a => by
      match a with
      | ⟨0, _⟩ => rfl
      | ⟨1, _⟩ => rfl)
  unfold ohv
  rw [truncf_apply, sitofp_apply, extui_apply]
  show FloatOps.sitofp (F := Ideal) .f32 ((IntOp.cmpi .eq _ _).setWidth 32) = _
  rw [h1, h2]
  exact eq_word_value _ _

/-! ## The augmented rows at an index -/

/-- The block's rows augmented to 384 columns: the rows, then a ones column, then zeros. -/
private def augv (x0 : Vec Ideal S1024x256 .f32) : FVec Ideal S1024x384 .bf16 :=
  truncf .bf16 (concatenate S1024x384 1 [⟨S1024x256, x0⟩, ⟨S1024x128,
    select (cmpi .eq (iota .tc S1024x128 32 [1] iota_S1024x128_d1_w32) (broadcast S1024x128 0#32))
      (broadcast S1024x128 (Scalar.ofBits (F := Ideal) .f32 0x3F800000#32))
      (broadcast S1024x128 (Scalar.ofBits (F := Ideal) .f32 0x00000000#32))⟩]
    concatenates_S1024x256_S1024x128_S1024x384_d1) bitsLt_bf16_f32

/-- The augmented rows at `(r, d)`: the row's entry for `d < 256`, one at `d = 256`, zero beyond. -/
private theorem aug_apply (x0 : Vec Ideal S1024x256 .f32) (r : Fin 1024) (d : Fin 384) :
    augv x0 (ix2 r d) = Cert.Spec.augRow (fun k => x0 (ix2 r k)) d := by
  unfold augv Cert.Spec.augRow
  rw [truncf_apply]
  by_cases h : d.val < 256
  · rw [dif_pos h]
    exact concatenate_pair_apply_left _ x0 _ concatenates_S1024x256_S1024x128_S1024x384_d1 (ix2 r d) rfl
      (ix2 r (⟨d.val, h⟩ : Fin 256)) (fun b => by
        match b with
        | ⟨0, _⟩ => rfl
        | ⟨1, _⟩ => rfl)
  · rw [dif_neg h]
    have hd : d.val - 256 < 128 := by omega
    refine (concatenate_pair_apply_right _ x0 _ concatenates_S1024x256_S1024x128_S1024x384_d1 (ix2 r d) rfl rfl
      (ix2 r (⟨d.val - 256, hd⟩ : Fin 128)) (fun b hb => by
        match b, hb with
        | ⟨0, _⟩, _ => rfl
        | ⟨1, _⟩, hb => exact absurd rfl hb) (by show d.val - 256 + 256 = d.val; omega)).trans ?_
    rw [select_apply]
    show Scalar.select (IntOp.cmpi .eq (iota .tc S1024x128 32 [1] iota_S1024x128_d1_w32 (ix2 r (⟨d.val - 256, hd⟩ : Fin 128))) 0#32)
      (Ideal.ofBits .f32 0x3F800000#32) (Ideal.ofBits .f32 0x00000000#32) = _
    rw [iota_single_apply]
    show Scalar.select (IntOp.cmpi .eq (BitVec.ofNat 32 (d.val - 256)) 0#32) _ _ = _
    by_cases h256 : d.val = 256
    · have hc : IntOp.cmpi .eq (BitVec.ofNat 32 0) 0#32 = 1#1 := by decide
      rw [if_pos h256, show d.val - 256 = 0 by omega, hc]
      exact (select_one _ _).trans Ideal.ofBits_one_f32
    · have hc : IntOp.cmpi .eq (BitVec.ofNat 32 (d.val - 256)) 0#32 = 0#1 := by
        show BitVec.ofBool (BitVec.ofNat 32 (d.val - 256) == 0#32) = 0#1
        have hne : BitVec.ofNat 32 (d.val - 256) ≠ 0#32 := by
          intro e
          have e' := congrArg BitVec.toNat e
          rw [BitVec.toNat_ofNat] at e'
          have e'' : (d.val - 256) % 4294967296 = 0 := e'
          omega
        rw [beq_eq_false_iff_ne.mpr hne]
        rfl
      rw [if_neg h256, hc]
      exact (select_zero _ _).trans Ideal.ofBits_zero_f32

/-! ## The product at an index: the row axis of both operands is contracted -/

/-- The left operand's row coordinate is the contraction's one coordinate. -/
private theorem lhs_0 (i : S4096x384.Idx) (k : dot_S1024x4096_S1024x384_S4096x384_0_0_1_1_n_n.contr.Idx) :
    (dot_S1024x4096_S1024x384_S4096x384_0_0_1_1_n_n.lhsIdx i k 0).val = (k ⟨0, by decide⟩).val :=
  dot_S1024x4096_S1024x384_S4096x384_0_0_1_1_n_n.lhsIdx_val_of_single rfl i k

/-- The left operand's column coordinate is the result's first. -/
private theorem lhs_1 (i : S4096x384.Idx) (k : dot_S1024x4096_S1024x384_S4096x384_0_0_1_1_n_n.contr.Idx) :
    (dot_S1024x4096_S1024x384_S4096x384_0_0_1_1_n_n.lhsIdx i k 1).val = (i 0).val := by
  unfold DotDims.lhsIdx
  rw [dif_neg (show ¬(1 : Fin S1024x4096.rank) ∈ dot_S1024x4096_S1024x384_S4096x384_0_0_1_1_n_n.lhsBatch by decide),
    dif_pos (show (1 : Fin S1024x4096.rank) ∈ dot_S1024x4096_S1024x384_S4096x384_0_0_1_1_n_n.lhsNonContracting by decide)]
  rfl

/-- The right operand's row coordinate is the contraction's one coordinate. -/
private theorem rhs_0 (i : S4096x384.Idx) (k : dot_S1024x4096_S1024x384_S4096x384_0_0_1_1_n_n.contr.Idx) :
    (dot_S1024x4096_S1024x384_S4096x384_0_0_1_1_n_n.rhsIdx i k 0).val = (k ⟨0, by decide⟩).val :=
  dot_S1024x4096_S1024x384_S4096x384_0_0_1_1_n_n.rhsIdx_val_of_single rfl i k

/-- The right operand's column coordinate is the result's second. -/
private theorem rhs_1 (i : S4096x384.Idx) (k : dot_S1024x4096_S1024x384_S4096x384_0_0_1_1_n_n.contr.Idx) :
    (dot_S1024x4096_S1024x384_S4096x384_0_0_1_1_n_n.rhsIdx i k 1).val = (i 1).val := by
  unfold DotDims.rhsIdx
  rw [dif_neg (show ¬(1 : Fin S1024x384.rank) ∈ dot_S1024x4096_S1024x384_S4096x384_0_0_1_1_n_n.rhsBatch by decide),
    dif_pos (show (1 : Fin S1024x384.rank) ∈ dot_S1024x4096_S1024x384_S4096x384_0_0_1_1_n_n.rhsNonContracting by decide)]
  rfl

/-- The product onto a zero accumulator at `(q, d)`: the sum over the 1024 rows of the two operands' entries in that row. -/
private theorem matmul_rows_apply (L : FVec Ideal S1024x4096 .bf16) (R : FVec Ideal S1024x384 .bf16) (q : Fin 4096) (d : Fin 384) :
    matmul dot_S1024x4096_S1024x384_S4096x384_0_0_1_1_n_n none L R (constant (F := Ideal) S4096x384 .f32 0x00000000#32) (ix2 q d)
      = ∑ r : Fin 1024, L (ix2 r q) * R (ix2 r d) := by
  simp only [matmul]
  rw [Ideal.matmul_constant_zero_apply,
    ← Equiv.sum_comp (contrEquiv1 dot_S1024x4096_S1024x384_S4096x384_0_0_1_1_n_n 1024 rfl rfl).symm]
  refine Finset.sum_congr rfl fun k _ => ?_
  have hk := contrEquiv1_symm_val dot_S1024x4096_S1024x384_S4096x384_0_0_1_1_n_n 1024 rfl rfl k
  have el : dot_S1024x4096_S1024x384_S4096x384_0_0_1_1_n_n.lhsIdx (ix2 q d)
      ((contrEquiv1 dot_S1024x4096_S1024x384_S4096x384_0_0_1_1_n_n 1024 rfl rfl).symm k) = ix2 k q :=
    funext fun a => Fin.ext (by
      match a with
      | ⟨0, _⟩ => exact (lhs_0 _ _).trans hk
      | ⟨1, _⟩ => exact lhs_1 _ _)
  have er : dot_S1024x4096_S1024x384_S4096x384_0_0_1_1_n_n.rhsIdx (ix2 q d)
      ((contrEquiv1 dot_S1024x4096_S1024x384_S4096x384_0_0_1_1_n_n 1024 rfl rfl).symm k) = ix2 k d :=
    funext fun a => Fin.ext (by
      match a with
      | ⟨0, _⟩ => exact (rhs_0 _ _).trans hk
      | ⟨1, _⟩ => exact rhs_1 _ _)
  rw [el, er]

/-! ## The two stored values -/

/-- The update's stored value is the old total plus the product of the one-hot block with the augmented rows, onto a zero accumulator. -/
private theorem pay2_eq (x0 : Vec Ideal S1024x256 .f32) (x1 : Vec Ideal S1024x1 .i32) (x2 : Vec Ideal S1x4096 .i32)
    (a : Vec Ideal S4096x384 .f32) :
    k0_pay2 (F := Ideal) x0 x1 x2 a
      = addf a (matmul dot_S1024x4096_S1024x384_S4096x384_0_0_1_1_n_n none (ohv x1 x2) (augv x0)
          (constant (F := Ideal) S4096x384 .f32 0x00000000#32)) :=
  shapeCast_self _ _

/-- The reset's stored value: zero everywhere. -/
theorem pay1_apply (j : S4096x384.Idx) : k0_pay1 (F := Ideal) j = 0 := by
  unfold Gen.k0_pay1
  rw [shapeCast_self]
  exact Ideal.ofBits_zero_f32

/-- The update's stored value at `(q, d)`: the old total there plus the one-hot weighted sum of the block's augmented rows. -/
theorem pay2_apply (x0 : Vec Ideal S1024x256 .f32) (x1 : Vec Ideal S1024x1 .i32) (x2 : Vec Ideal S1x4096 .i32)
    (a : Vec Ideal S4096x384 .f32) (q : Fin 4096) (d : Fin 384) :
    k0_pay2 (F := Ideal) x0 x1 x2 a (ix2 q d)
      = a (ix2 q d) + ∑ r : Fin 1024, Cert.Spec.oh (x1 (ix2 r (0 : Fin 1))) (x2 (ix2 (0 : Fin 1) q)) * Cert.Spec.augRow (fun k => x0 (ix2 r k)) d := by
  rw [pay2_eq, addf_apply, matmul_rows_apply]
  refine congrArg (a (ix2 q d) + ·) (Finset.sum_congr rfl fun r _ => ?_)
  rw [onehot_apply, aug_apply]

end Cert.KernelIdeal.KPay

end
-- ==== Proof.KBlocks.lean ====
/-
  THE KERNEL'S INPUT BLOCKS, READ AT AN INDEX. At grid point `t` the first window's block is rows `1024 t .. 1024 t + 1023` of `x`;
  the second window's block is the same rows of the class column, which the program makes by reshaping the class array, so its entry
  `(r, 0)` is the class array's entry `1024 t + r`; the third window's block is, at every point, the whole query row, the query array
  reshaped, so its entry `(0, q)` is the query array's entry `q`.
-/
import proofs.«406712_j1743756722487_1_alg».proof.Proof.KPieces
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.KBlocks

open Cert.KernelIdeal Cert.KernelIdeal.Gen Cert.KernelIdeal.KVal

variable {F : FTy → Type} [FloatOps F]
variable (m : (ℓ : Loc nD τ sig) → Buf (Elt F) ℓ)

/-- Row `r` of block `t` is row `1024 t + r` of the array. -/
theorem row_lt (t : Fin cfg0.N) (r : Fin 1024) : 1024 * t.val + r.val < 262144 := by
  have hN : cfg0.N = 256 := N_0
  have := t.isLt
  have := r.isLt
  omega

theorem idx0 : ∀ t : Fin cfg0.N, win0_0.index t 0 = t.val ∧ win0_0.index t 1 = 0 :=
  (by decide +kernel : ∀ t : Fin grid0.N, _)

theorem xblk_apply (c : Dev nD) (t : Fin cfg0.N) (r : Fin 1024) (k : Fin 256) :
    xblk m c t (ix2 r k) = m ((c : Thread nD τ).loc main_arg0) (ix2 (⟨1024 * t.val + r.val, row_lt t r⟩ : Fin 262144) k) := by
  have hi := idx0 t
  show iblk m c 0 t (ix2 r k) = _
  unfold iblk
  rw [View.read_apply]
  show V m c main_arg0 _ = m (c.tc.loc main_arg0) _
  rw [V_main_arg0]
  refine congrArg _ ?_
  funext a
  apply Fin.ext
  match a with
  | ⟨0, _⟩ => show win0_0.index t 0 * 1024 + 1 * r.val = 1024 * t.val + r.val; rw [hi.1]; omega
  | ⟨1, _⟩ => show win0_0.index t 1 * 256 + 1 * k.val = k.val; rw [hi.2]; omega

/-- The class column as the region finds it: the class array reshaped. -/
theorem V_main_v0 (c : Dev nD) :
    (V m c main_v0 : S262144x1.Idx → BitVec 32)
      = shapeCast S262144x1 (m ((c : Thread nD τ).loc main_arg2)) shapeCasts_S262144_S262144x1 := by
  show StableHlo.after hostOps0 (fun b => m (c, b)) (Proc.devRef .tc main_v0) = _
  after_results
  rfl

/-- The query row as the region finds it: the query array reshaped. -/
theorem V_main_v1 (c : Dev nD) :
    (V m c main_v1 : S1x4096.Idx → BitVec 32)
      = shapeCast S1x4096 (m ((c : Thread nD τ).loc main_arg3)) shapeCasts_S4096_S1x4096 := by
  show StableHlo.after hostOps0 (fun b => m (c, b)) (Proc.devRef .tc main_v1) = _
  after_results
  rfl

/-- An array reshaped to a column reads entry (n, 0) at n. -/
theorem column_apply {α : Type} (x : S262144.Idx → α) (n : Fin 262144) :
    shapeCast S262144x1 x shapeCasts_S262144_S262144x1 (ix2 n (0 : Fin 1)) = x (ix1 n) :=
  shapeCast_apply x _ (ix2 n (0 : Fin 1)) (ix1 n) (by
    rw [Shape.rowMajor_val_two, Shape.rowMajor_val_one]; show n.val = n.val * 1 + 0; omega)

/-- An array reshaped to a row reads entry (0, q) at q. -/
theorem row_apply {α : Type} (x : S4096.Idx → α) (q : Fin 4096) :
    shapeCast S1x4096 x shapeCasts_S4096_S1x4096 (ix2 (0 : Fin 1) q) = x (ix1 q) :=
  shapeCast_apply x _ (ix2 (0 : Fin 1) q) (ix1 q) (by
    rw [Shape.rowMajor_val_two, Shape.rowMajor_val_one]; show q.val = 0 * 4096 + q.val; omega)

theorem idx1 : ∀ t : Fin cfg0.N, win0_1.index t 0 = t.val ∧ win0_1.index t 1 = 0 :=
  (by decide +kernel : ∀ t : Fin grid0.N, _)

theorem idx2 : ∀ t : Fin cfg0.N, win0_2.index t 0 = 0 ∧ win0_2.index t 1 = 0 :=
  (by decide +kernel : ∀ t : Fin grid0.N, _)

theorem rblk_apply (c : Dev nD) (t : Fin cfg0.N) (r : Fin 1024) :
    rblk m c t (ix2 r (0 : Fin 1)) = m ((c : Thread nD τ).loc main_arg2) (ix1 (⟨1024 * t.val + r.val, row_lt t r⟩ : Fin 262144)) := by
  have hi := idx1 t
  show iblk m c 1 t (ix2 r (0 : Fin 1)) = _
  unfold iblk
  rw [View.read_apply]
  show (V m c main_v0 : S262144x1.Idx → BitVec 32) _ = m (c.tc.loc main_arg2) _
  rw [V_main_v0]
  refine Eq.trans (congrArg _ ?_) (column_apply _ ⟨1024 * t.val + r.val, row_lt t r⟩)
  funext a
  apply Fin.ext
  match a with
  | ⟨0, _⟩ => show win0_1.index t 0 * 1024 + 1 * r.val = 1024 * t.val + r.val; rw [hi.1]; omega
  | ⟨1, _⟩ => show win0_1.index t 1 * 1 + 1 * 0 = 0; rw [hi.2]

theorem qblk_apply (c : Dev nD) (t : Fin cfg0.N) (q : Fin 4096) :
    qblk m c t (ix2 (0 : Fin 1) q) = m ((c : Thread nD τ).loc main_arg3) (ix1 q) := by
  have hi := idx2 t
  show iblk m c 2 t (ix2 (0 : Fin 1) q) = _
  unfold iblk
  rw [View.read_apply]
  show (V m c main_v1 : S1x4096.Idx → BitVec 32) _ = m (c.tc.loc main_arg3) _
  rw [V_main_v1]
  refine Eq.trans (congrArg _ ?_) (row_apply _ q)
  funext a
  apply Fin.ext
  match a with
  | ⟨0, _⟩ => show win0_2.index t 0 * 1 + 1 * 0 = 0; rw [hi.1]
  | ⟨1, _⟩ => show win0_2.index t 1 * 4096 + 1 * q.val = q.val; rw [hi.2]; omega

end Cert.KernelIdeal.KBlocks

end
-- ==== Proof.KAcc.lean ====
/-
  THE RUNNING TOTAL IN CLOSED FORM, over the extended reals. Block `t` of `x` is rows `1024 t .. 1024 t + 1023`, block `t` of the class
  column the same rows' words (the column is the class array reshaped), and the query row is the query array reshaped, the same at every
  point. The total after point `n` at `(q, d)` is the one-hot weighted sum of the augmented rows over the points up to `n`; after the
  last point that is the sum over all 262144 rows: a row's number is `1024 t + r` for exactly one point `t` and one row `r` of its block.
-/
import proofs.«406712_j1743756722487_1_alg».proof.Proof.KPieces
import proofs.«406712_j1743756722487_1_alg».proof.Proof.KPay
import proofs.«406712_j1743756722487_1_alg».proof.Proof.KBlocks
import proofs.«406712_j1743756722487_1_alg».proof.Proof.Spec
import Mathlib.Algebra.BigOperators.Fin

noncomputable section

open scoped BigOperators
open Idealize.ShloMosaic Idealize.ShloMosaic.TcCoe Idealize.SL.Sem Idealize.ShloMosaic.ValueIdx

namespace Cert.KernelIdeal.KAcc

open Cert.KernelIdeal Cert.KernelIdeal.Gen Cert.KernelIdeal.KVal

variable (m : (ℓ : Loc nD τ sig) → Buf (Elt Ideal) ℓ)

/-- The three argument arrays at their literal types: `x`, the rows' class words, the queries' class words. -/
abbrev X (c : Dev nD) : Cert.Spec.SX.Idx → EReal := m ((c : Thread nD τ).loc main_arg0)
abbrev TR (c : Dev nD) : Cert.Spec.SRow.Idx → BitVec 32 := m ((c : Thread nD τ).loc main_arg2)
abbrev TQ (c : Dev nD) : Cert.Spec.STgt.Idx → BitVec 32 := m ((c : Thread nD τ).loc main_arg3)

/-- Row `n`'s term of the sum at `(q, d)`: its one-hot weight against query `q` times column `d` of the augmented row. -/
def term (c : Dev nD) (q : Fin 4096) (d : Fin 384) (n : Fin 262144) : EReal :=
  Cert.Spec.oh (TR m c (ix1 n)) (TQ m c (ix1 q)) * Cert.Spec.aug (X m c) n d

/-- Point `t`'s contribution at `(q, d)`: the terms of rows `1024 t .. 1024 t + 1023`. -/
def part (c : Dev nD) (q : Fin 4096) (d : Fin 384) (t : Fin cfg0.N) : EReal :=
  ∑ r : Fin 1024, term m c q d ⟨1024 * t.val + r.val, KBlocks.row_lt t r⟩

/-- One update over point `t`'s blocks adds point `t`'s contribution: entry `(r, 0)` of the class column is row `1024 t + r`'s word,
    entry `(0, q)` of the query row is query `q`'s word, and row `r` of the block of `x` is row `1024 t + r` of `x`. -/
theorem step (c : Dev nD) (t : Fin cfg0.N) (a : Vec Ideal S4096x384 .f32) (q : Fin 4096) (d : Fin 384) :
    k0_pay2 (F := Ideal) (xblk m c t) (rblk m c t) (qblk m c t) a (ix2 q d) = a (ix2 q d) + part m c q d t := by
  refine (KPay.pay2_apply (xblk m c t) (rblk m c t) (qblk m c t) a q d).trans ?_
  congr 1
  unfold part term
  refine Finset.sum_congr rfl fun r _ => ?_
  rw [KBlocks.rblk_apply m c t r, KBlocks.qblk_apply m c t q]
  congr 1
  unfold Cert.Spec.aug
  exact congrArg (fun f => Cert.Spec.augRow f d) (funext fun k => KBlocks.xblk_apply m c t r k)

/-- The total after point `n` at `(q, d)`: the contributions of the points `0 .. n`, by induction on `n`; the first update is over the
    zero block, every later one over the total the point before left. -/
theorem acc_apply (c : Dev nD) (q : Fin 4096) (d : Fin 384) : ∀ (n : ℕ) (h : n < cfg0.N),
    acc (F := Ideal) m c n h (ix2 q d)
      = ∑ t : Fin (n + 1), part m c q d ⟨t.val, Nat.lt_of_lt_of_le t.isLt (Nat.succ_le_of_lt h)⟩ := by
  intro n
  induction n with
  | zero =>
    intro h
    refine (step m c ⟨0, h⟩ (k0_pay1 (F := Ideal)) q d).trans ?_
    rw [KPay.pay1_apply (ix2 q d), zero_add, Fin.sum_univ_one]
    rfl
  | succ n ih =>
    intro h
    refine (step m c ⟨n + 1, h⟩ (acc (F := Ideal) m c n (Nat.lt_of_succ_lt h)) q d).trans ?_
    rw [ih (Nat.lt_of_succ_lt h), Fin.sum_univ_castSucc (n := n + 1)]
    rfl

/-- Rows numbered by (point, row of the block): the pair `(t, r)` is row `1024 t + r`, each row exactly once. -/
def rowEquiv : Fin 256 × Fin 1024 ≃ Fin 262144 := finProdFinEquiv

theorem rowEquiv_val (p : Fin 256 × Fin 1024) : (rowEquiv p).val = 1024 * p.1.val + p.2.val := by
  show p.2.val + 1024 * p.1.val = _
  omega

/-- The region's result at `(q, d)`: the one-hot weighted sum of ALL augmented rows (`Cert.Spec.sc`). The total after the last point is
    the double sum over the 256 points and the 1024 rows of a block, which is the single sum over the 262144 rows. -/
theorem scArr_apply (c : Dev nD) (q : Fin 4096) (d : Fin 384) :
    scArr (F := Ideal) m c (ix2 q d)
      = Cert.Spec.sc (m ((c : Thread nD τ).loc main_arg0)) (m ((c : Thread nD τ).loc main_arg2)) (m ((c : Thread nD τ).loc main_arg3)) q d := by
  refine (acc_apply m c q d 255 lt255).trans ?_
  show _ = ∑ n : Fin 262144, term m c q d n
  unfold part
  rw [← Fintype.sum_prod_type']
  refine Fintype.sum_equiv rowEquiv _ _ fun p => ?_
  exact congrArg (term m c q d) (Fin.ext (rowEquiv_val p).symm)

end Cert.KernelIdeal.KAcc

end
-- ==== Proof.LibScatterSet.lean ====
/-
  A SCATTER WHOSE BODY KEEPS THE UPDATE, READ AT AN INDEX. A scatter walks the update positions in row-major order and, for each one
  whose result index lies inside the operand, replaces the element there by the body applied to that element and the update; an update
  landing outside is dropped. Whatever the body is, at a result index one of two things holds after the walk: no update position lands
  there and the element is the operand's, or some update position lands there and the element is the body applied to something and that
  position's update. When the body returns its second argument (a scatter that SETS), the second case says the element IS the update of
  a position that lands there: which one the order decides, that it is one of them no order changes. First the walk over any list of
  positions, by induction on the list; then the scatter itself. At any shapes, any scatter dimension numbers, any index width.
-/
import Idealize.ShloMosaic.PureOps.ShapeOps

namespace Cert.LibScatterSet

open Idealize.ShloMosaic

variable {α : Type} {s si u : Shape} {w : Nat}

/-- The scatter's left fold over ANY list of update positions, with any body `f`: at a result index `i`, either no position of the
    list lands on `i` and the element is the starting one, or a position of the list lands on `i` and the element is `f` of something
    and that position's update. -/
theorem scatter_foldl_cases (d : ScatterDims s si u) (f : α → α → α) (idx : IVec si w) (upd : u.Idx → α) (i : s.Idx)
    (l : List (Fin u.numel)) (x : s.Idx → α) :
    ((∀ n ∈ l, d.resultIdx? (u.rowMajor.symm n) idx ≠ some i) ∧
      (l.foldl (fun r n =>
        match d.resultIdx? (u.rowMajor.symm n) idx with
        | some i0 => fun i' => if i' = i0 then f (r i0) (upd (u.rowMajor.symm n)) else r i'
        | none => r) x) i = x i) ∨
    (∃ n ∈ l, d.resultIdx? (u.rowMajor.symm n) idx = some i ∧ ∃ a : α,
      (l.foldl (fun r n =>
        match d.resultIdx? (u.rowMajor.symm n) idx with
        | some i0 => fun i' => if i' = i0 then f (r i0) (upd (u.rowMajor.symm n)) else r i'
        | none => r) x) i = f a (upd (u.rowMajor.symm n))) := by
  induction l generalizing x with
  | nil => exact Or.inl ⟨fun n hn => absurd hn (List.not_mem_nil), rfl⟩
  | cons n l ih =>
    rw [List.foldl_cons]
    -- the first step's value at `i`: changed exactly when position `n` lands on `i`
    have hx' : (match d.resultIdx? (u.rowMajor.symm n) idx with
        | some i0 => fun i' => if i' = i0 then f (x i0) (upd (u.rowMajor.symm n)) else x i'
        | none => x) i
        = if d.resultIdx? (u.rowMajor.symm n) idx = some i then f (x i) (upd (u.rowMajor.symm n)) else x i := by
      cases hr : d.resultIdx? (u.rowMajor.symm n) idx with
      | none => simp
      | some i0 =>
        by_cases h : i = i0
        · subst h; simp
        · simp [h, Ne.symm h]
    rcases ih (match d.resultIdx? (u.rowMajor.symm n) idx with
        | some i0 => fun i' => if i' = i0 then f (x i0) (upd (u.rowMajor.symm n)) else x i'
        | none => x) with ⟨hno, hval⟩ | ⟨n', hn', hland, a, hval⟩
    · rw [hx'] at hval
      by_cases hl : d.resultIdx? (u.rowMajor.symm n) idx = some i
      · rw [if_pos hl] at hval
        exact Or.inr ⟨n, List.mem_cons.2 (Or.inl rfl), hl, x i, hval⟩
      · rw [if_neg hl] at hval
        refine Or.inl ⟨fun n'' hn'' => ?_, hval⟩
        rcases List.mem_cons.1 hn'' with rfl | h'
        · exact hl
        · exact hno n'' h'
    · exact Or.inr ⟨n', List.mem_cons.2 (Or.inr hn'), hland, a, hval⟩

/-- A scatter that SETS (its body returns the update), read at a result index `i`: either no update index lands on `i` and the element
    is the operand's, or the element is the update at an index that lands on `i`. -/
theorem scatter_set_apply (d : ScatterDims s si u) (x : s.Idx → α) (idx : IVec si w) (upd : u.Idx → α) (i : s.Idx) :
    ((∀ j, d.resultIdx? j idx ≠ some i) ∧ Host.scatter d (fun _ b => b) x idx upd i = x i) ∨
    (∃ j, d.resultIdx? j idx = some i ∧ Host.scatter d (fun _ b => b) x idx upd i = upd j) := by
  unfold Host.scatter
  rcases scatter_foldl_cases d (fun _ b => b) idx upd i (List.finRange u.numel) x with ⟨hno, hval⟩ | ⟨n, _, hland, _, hval⟩
  · refine Or.inl ⟨fun j => ?_, hval⟩
    have := hno (u.rowMajor j) (List.mem_finRange _)
    rwa [Equiv.symm_apply_apply] at this
  · exact Or.inr ⟨u.rowMajor.symm n, hland, hval⟩

end Cert.LibScatterSet
-- ==== Proof.LibScatterLand.lean ====
/-
  WHERE A ROW-INDEXED SCATTER OR GATHER LANDS. jax's `x.at[idx].set(v)`, `x.at[idx].add(v)` and `x[idx]` over the FIRST axis of a table,
  with one integer per update row, print as a scatter (or gather) whose start indices are an [n × 1] column: the index vector on axis 1,
  the table's first axis the one scattered (inserted, or collapsed for the gather), and, for a table of rows, the second axis a window
  axis. Update row `p` lands on table row `c` exactly when its start index, read as a SIGNED integer and NOT clamped, is `c` (an index
  outside the table lands nowhere), and it lands in its own column. The gather reads the table's row at the start index clamped into
  the table. Stated for any such dimension numbers (the printed fields, each by `rfl`), any sizes, any index width.
-/
import Idealize.ShloMosaic.PureOps.ShapeOps
import Idealize.ShloMosaic.Lib.ValueIdx

namespace Cert.LibScatterLand

open Idealize.ShloMosaic Idealize.ShloMosaic.ValueIdx

/-- A scatter of rows into a table of rows: update `(p, k)` lands on `(c, k')` exactly when row `p`'s start index read signed is `c`
    and the columns agree. -/
theorem resultIdx?_rows {N C n w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0])
    (hiv : d.indexVectorDim = 1) (idx : IVec ⟨2, ![n, 1]⟩ w) (p : Fin n) (k : Fin C) (c : Fin N) (k' : Fin C) :
    d.resultIdx? (ix2 p k) idx = some (ix2 c k') ↔ (idx (ix2 p (0 : Fin 1))).toInt = (c.val : Int) ∧ k = k' := by
  have hm0 : (0 : Fin 2) ∈ d.scatterDimsToOperandDims := by rw [hsd]; exact List.mem_singleton.mpr rfl
  have hm1 : (1 : Fin 2) ∉ d.scatterDimsToOperandDims := by
    rw [hsd]; intro hmem
    have h10 : (1 : Fin 2).val = (0 : Fin 2).val := congrArg Fin.val (List.mem_singleton.mp hmem)
    exact absurd h10 (by decide)
  have hk0 : (0 : Fin 2) ∉ d.sKept := by
    simp [ScatterDims.sKept, Shape.kept, hins]
  have hk1 : (1 : Fin 2) ∈ d.sKept := by
    simp [ScatterDims.sKept, Shape.kept, hins]
  -- every update scatter axis is axis 0, every update window axis is axis 1
  have hus : ∀ X : Fin 2, X ∈ d.uScatter → X = 0 := by
    intro X hX
    simp [ScatterDims.uScatter, Shape.kept, huw] at hX
    apply Fin.ext
    have hlt : X.val < 2 := X.isLt
    have hne : X.val ≠ 1 := fun hv => hX (Fin.ext hv)
    show X.val = 0
    omega
  have huwm : ∀ X : Fin 2, X ∈ d.updateWindowDims → X = 1 := by
    intro X hX; rw [huw] at hX; exact List.mem_singleton.mp hX
  have hwin0 : d.window (ix2 p k) 0 = 0 := by unfold ScatterDims.window; rw [dif_neg hk0]
  have hwin1 : d.window (ix2 p k) 1 = k.val := by
    unfold ScatterDims.window; rw [dif_pos hk1]
    have e : ∀ X : Fin 2, X = 1 → ((ix2 p k : (⟨2, ![n, C]⟩ : Shape).Idx) X).val = k.val := fun X hX => by
      subst hX; rfl
    exact e _ (huwm _ (List.getElem_mem _))
  -- the index array is read at row p (its axis 0 follows the update's scatter coordinate), component 0 of the index vector
  have hsi : d.siIdx (ix2 p k) ⟨List.idxOf (0 : Fin 2) d.scatterDimsToOperandDims, List.idxOf_lt_length_iff.2 hm0⟩ = ix2 p 0 := by
    funext b
    match b with
    | ⟨0, _⟩ =>
      unfold ScatterDims.siIdx
      rw [dif_neg (by rw [hiv]; simp)]
      unfold ScatterDims.siCoord
      apply Fin.ext
      simp only [Fin.val_cast]
      have e : ∀ X : Fin 2, X = 0 → ((ix2 p k : (⟨2, ![n, C]⟩ : Shape).Idx) X).val = p.val := fun X hX => by
        subst hX; rfl
      exact e _ (hus _ (List.getElem_mem _))
    | ⟨1, _⟩ =>
      unfold ScatterDims.siIdx
      rw [dif_pos (by rw [hiv])]
      apply Fin.ext
      show List.idxOf (0 : Fin 2) d.scatterDimsToOperandDims = 0
      rw [hsd]; simp
  have hstart0 : d.start (ix2 p k) idx 0 = (idx (ix2 p 0)).toInt := by
    unfold ScatterDims.start; rw [dif_pos hm0, hsi]
  have hstart1 : d.start (ix2 p k) idx 1 = 0 := by
    unfold ScatterDims.start; rw [dif_neg hm1]
  -- axis 0 lands at the signed start index (window coordinate 0), axis 1 at the update's column (start 0);
  -- the update is kept exactly when both are inside the table
  unfold ScatterDims.resultIdx?
  by_cases h : ∀ (a : Fin (⟨2, ![N, C]⟩ : Shape).rank),
      0 ≤ d.start (ix2 p k) idx a + (d.window (ix2 p k) a : Int) ∧
        d.start (ix2 p k) idx a + (d.window (ix2 p k) a : Int) < ((⟨2, ![N, C]⟩ : Shape).size a : Int)
  · rw [dif_pos h, Option.some.injEq]
    constructor
    · intro he
      have e0 := congrArg (fun f : (⟨2, ![N, C]⟩ : Shape).Idx => (f 0).val) he
      have e1 := congrArg (fun f : (⟨2, ![N, C]⟩ : Shape).Idx => (f 1).val) he
      have h0 := (h 0).1
      simp only [hstart0, hwin0] at e0 h0
      simp only [hstart1, hwin1] at e1
      change ((idx (ix2 p 0)).toInt + ((0 : Nat) : Int)).toNat = c.val at e0
      change ((0 : Int) + (k.val : Int)).toNat = k'.val at e1
      refine ⟨?_, Fin.ext ?_⟩
      · show _ = (c.val : Int)
        omega
      · omega
    · rintro ⟨hz, hkk⟩
      subst hkk
      funext a
      match a with
      | ⟨0, _⟩ =>
        apply Fin.ext
        show (d.start (ix2 p k) idx 0 + (d.window (ix2 p k) 0 : Int)).toNat = c.val
        rw [hstart0, hwin0, hz]; omega
      | ⟨1, _⟩ =>
        apply Fin.ext
        show (d.start (ix2 p k) idx 1 + (d.window (ix2 p k) 1 : Int)).toNat = k.val
        rw [hstart1, hwin1]; omega
  · rw [dif_neg h]
    constructor
    · intro he; exact absurd he (by simp)
    · rintro ⟨hz, hkk⟩
      exfalso; apply h
      intro a
      have hc : c.val < N := c.isLt
      have hkC : k.val < C := k.isLt
      match a with
      | ⟨0, _⟩ =>
        show 0 ≤ d.start (ix2 p k) idx 0 + (d.window (ix2 p k) 0 : Int) ∧
          d.start (ix2 p k) idx 0 + (d.window (ix2 p k) 0 : Int) < (N : Int)
        rw [hstart0, hwin0, hz]; omega
      | ⟨1, _⟩ =>
        show 0 ≤ d.start (ix2 p k) idx 1 + (d.window (ix2 p k) 1 : Int) ∧
          d.start (ix2 p k) idx 1 + (d.window (ix2 p k) 1 : Int) < (C : Int)
        rw [hstart1, hwin1]; omega

/-- A scatter of scalars into a flat table: update `p` lands on `c` exactly when its start index read signed is `c`. -/
theorem resultIdx?_flat {N n w : Nat} (d : ScatterDims ⟨1, ![N]⟩ ⟨2, ![n, 1]⟩ ⟨1, ![n]⟩)
    (huw : d.updateWindowDims = []) (hins : d.insertedWindowDims = [0]) (hsd : d.scatterDimsToOperandDims = [0])
    (hiv : d.indexVectorDim = 1) (idx : IVec ⟨2, ![n, 1]⟩ w) (p : Fin n) (c : Fin N) :
    d.resultIdx? (ix1 p) idx = some (ix1 c) ↔ (idx (ix2 p (0 : Fin 1))).toInt = (c.val : Int) := by
  have hm : (0 : Fin 1) ∈ d.scatterDimsToOperandDims := by rw [hsd]; exact List.mem_singleton.mpr rfl
  have hk : (0 : Fin 1) ∉ d.sKept := by
    simp [ScatterDims.sKept, Shape.kept, hins]
  have hwin : d.window (ix1 p) 0 = 0 := by unfold ScatterDims.window; rw [dif_neg hk]
  -- the index array is read at row p (its axis 0 follows the update's one coordinate), component 0 of the index vector
  have hsi : d.siIdx (ix1 p) ⟨List.idxOf (0 : Fin 1) d.scatterDimsToOperandDims, List.idxOf_lt_length_iff.2 hm⟩ = ix2 p 0 := by
    funext b
    match b with
    | ⟨0, _⟩ =>
      unfold ScatterDims.siIdx
      rw [dif_neg (by rw [hiv]; simp)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hstart : d.start (ix1 p) idx 0 = (idx (ix2 p 0)).toInt := by
    unfold ScatterDims.start; rw [dif_pos hm, hsi]
  -- the one axis lands at the signed start index (window coordinate 0); the update is kept exactly when that is inside the table
  unfold ScatterDims.resultIdx?
  by_cases h : ∀ (a : Fin (⟨1, ![N]⟩ : Shape).rank),
      0 ≤ d.start (ix1 p) idx a + (d.window (ix1 p) a : Int) ∧
        d.start (ix1 p) idx a + (d.window (ix1 p) a : Int) < ((⟨1, ![N]⟩ : Shape).size a : Int)
  · rw [dif_pos h, Option.some.injEq]
    constructor
    · intro he
      have h1 := congrArg (fun f : (⟨1, ![N]⟩ : Shape).Idx => (f 0).val) he
      have h0 := (h 0).1
      simp only [hstart, hwin] at h1 h0
      show _ = (c.val : Int)
      change ((idx (ix2 p 0)).toInt + ((0 : Nat) : Int)).toNat = c.val at h1
      omega
    · intro hz
      funext a
      obtain rfl : a = 0 := Subsingleton.elim _ _
      apply Fin.ext
      show (d.start (ix1 p) idx 0 + (d.window (ix1 p) 0 : Int)).toNat = c.val
      rw [hstart, hwin, hz]; omega
  · rw [dif_neg h]
    constructor
    · intro he; exact absurd he (by simp)
    · intro hz
      exfalso; apply h
      intro a
      obtain rfl : a = 0 := Subsingleton.elim _ _
      rw [hstart, hwin, hz]
      have hc : c.val < N := c.isLt
      show 0 ≤ (c.val : Int) + ((0 : Nat) : Int) ∧ (c.val : Int) + ((0 : Nat) : Int) < (N : Int)
      omega

/-- A gather of rows of a table of rows: result `(p, k)` is the table at row `p`'s start index, read signed and clamped into the table,
    column `k`. -/
theorem gather_rows_apply {α : Type} {N C n w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hiv : d.indexVectorDim = 1)
    (x : (⟨2, ![N, C]⟩ : Shape).Idx → α) (idx : IVec ⟨2, ![n, 1]⟩ w) (p : Fin n) (k : Fin C) :
    Host.gather d x idx (ix2 p k) = x (ix2 (⟨min (idx (ix2 p (0 : Fin 1))).toInt.toNat (N - 1), by omega⟩ : Fin N) k) := by
  have hm0 : (0 : Fin 2) ∈ d.startIndexMap := by rw [hsim]; exact List.mem_singleton.mpr rfl
  have hm1 : (1 : Fin 2) ∉ d.startIndexMap := by
    rw [hsim]; intro hmem
    have h10 : (1 : Fin 2).val = (0 : Fin 2).val := congrArg Fin.val (List.mem_singleton.mp hmem)
    exact absurd h10 (by decide)
  have hb : ∀ a : Fin 2, a ∉ d.operandBatchingDims := by intro a; rw [hob]; exact List.not_mem_nil
  have hk0 : (0 : Fin 2) ∉ d.sKept := by rw [GatherDims.mem_sKept, hcoll]; simp
  have hk1 : (1 : Fin 2) ∈ d.sKept := by
    rw [GatherDims.mem_sKept, hcoll, hob]
    refine ⟨?_, List.not_mem_nil⟩
    intro hmem
    have h10 : (1 : Fin 2).val = (0 : Fin 2).val := congrArg Fin.val (List.mem_singleton.mp hmem)
    exact absurd h10 (by decide)
  have hsl : d.sliceSizes 0 = 1 := d.slice_collapsed 0 (by rw [hcoll]; exact List.mem_singleton.mpr rfl)
  -- every batch axis of the result is axis 0, every offset axis is axis 1
  have hbd : ∀ X : Fin 2, X ∈ d.batchDims → X = 0 := by
    intro X hX
    simp [GatherDims.batchDims, Shape.kept, hoff] at hX
    apply Fin.ext
    have hlt : X.val < 2 := X.isLt
    have hne : X.val ≠ 1 := fun hv => hX (Fin.ext hv)
    show X.val = 0
    omega
  have hom : ∀ X : Fin 2, X ∈ d.offsetDims → X = 1 := by
    intro X hX; rw [hoff] at hX; exact List.mem_singleton.mp hX
  -- the index array is read at row p (its axis 0 follows the result's batch coordinate), component 0 of the index vector
  have hsi : d.siIdx (ix2 p k) ⟨List.idxOf (0 : Fin 2) d.startIndexMap, List.idxOf_lt_length_iff.2 hm0⟩ = ix2 p 0 := by
    funext b
    match b with
    | ⟨0, _⟩ =>
      unfold GatherDims.siIdx
      rw [dif_neg (by rw [hiv]; simp)]
      unfold GatherDims.siCoord
      apply Fin.ext
      simp only [Fin.val_cast]
      have e : ∀ X : Fin 2, X = 0 → ((ix2 p k : (⟨2, ![n, C]⟩ : Shape).Idx) X).val = p.val := fun X hX => by
        subst hX; rfl
      exact e _ (hbd _ (List.getElem_mem _))
    | ⟨1, _⟩ =>
      unfold GatherDims.siIdx
      rw [dif_pos (by rw [hiv])]
      apply Fin.ext
      show List.idxOf (0 : Fin 2) d.startIndexMap = 0
      rw [hsim]; simp
  have hstart0 : d.start (ix2 p k) idx 0 = min (idx (ix2 p 0)).toInt.toNat (N - 1) := by
    unfold GatherDims.start; rw [dif_pos hm0, hsi, hsl]; rfl
  have hstart1 : d.start (ix2 p k) idx 1 = 0 := by
    unfold GatherDims.start; rw [dif_neg hm1]
  have hoff0 : d.offCoord (ix2 p k) 0 = 0 := d.offCoord_eq_zero _ _ hk0
  have hoff1 : d.offCoord (ix2 p k) 1 = k.val := by
    unfold GatherDims.offCoord; rw [dif_pos hk1]
    have e : ∀ X : Fin 2, X = 1 → ((ix2 p k : (⟨2, ![n, C]⟩ : Shape).Idx) X).val = k.val := fun X hX => by
      subst hX; rfl
    exact e _ (hom _ (List.getElem_mem _))
  -- axis 0 reads the clamped start index (collapsed: no offset), axis 1 the result's column (start 0)
  unfold Host.gather
  refine congrArg x ?_
  funext a
  match a with
  | ⟨0, _⟩ =>
    apply Fin.ext
    show d.start (ix2 p k) idx 0 + d.batchCoord (ix2 p k) 0 + d.offCoord (ix2 p k) 0 = _
    rw [hstart0, d.batchCoord_eq_zero _ _ (hb 0), hoff0]
    rfl
  | ⟨1, _⟩ =>
    apply Fin.ext
    show d.start (ix2 p k) idx 1 + d.batchCoord (ix2 p k) 1 + d.offCoord (ix2 p k) 1 = _
    rw [hstart1, d.batchCoord_eq_zero _ _ (hb 1), hoff1]
    show 0 + 0 + k.val = k.val
    omega

end Cert.LibScatterLand
-- ==== Proof.KTailRead.lean ====
/-
  THE KERNEL PROGRAM'S RESULT AT AN INDEX, over the extended reals, for query words that are non-negative. Row `c` of the result is
  the table's row where no query's word is `c`; where some query's is, it is the new row of one such query `q` (which one the order of the
  writes decides; any of them carries the same class): the rule of `Cert.Spec.rowRule` applied to the count at `q` (column 256 of the
  region's result), the sum at `(q, d)` and, as the fallback, the table's own entry at `(c, d)` (the table read at the query's class,
  which is `c`).
-/
import proofs.«406712_j1743756722487_1_alg».proof.Proof.KTail
import proofs.«406712_j1743756722487_1_alg».proof.Proof.Spec
import proofs.«406712_j1743756722487_1_alg».proof.Proof.LibScatterSet
import proofs.«406712_j1743756722487_1_alg».proof.Proof.LibScatterLand
import Idealize.ShloMosaic.Lib.ValueIdx
import Idealize.ShloMosaic.Lib.ValueLayout
import Idealize.ShloMosaic.Lib.Pipeline.Value
import Idealize.ShloMosaic.Lib.StableHlo.Predicate

noncomputable section

open Idealize.ShloMosaic Idealize.ShloMosaic.ValueIdx

namespace Cert.KernelIdeal.KTailRead

open Cert.KernelIdeal Cert.KernelIdeal.KTail

/-- A one-axis vector laid as a column reads, at row `q`, the vector at `q`. -/
theorem col_apply {α : Type} (v : S4096.Idx → α) (q : Fin 4096) :
    broadcastInDim S4096x1 ![0] Facts₀.bcast_S4096_S4096x1_0 v (ix2 q (0 : Fin 1)) = v (ix1 q) := by
  refine broadcastInDim_apply _ _ v (ix2 q (0 : Fin 1)) (ix1 q) fun a => ?_
  match a with
  | ⟨0, _⟩ =>
    show q.val = if (4096 : Nat) = 1 then 0 else q.val
    rw [if_neg (by decide)]

/-- A one-axis vector laid along the rows of the 4096 × 256 rectangle reads, at `(q, k)`, the vector at `q`. -/
theorem rows_apply {α : Type} (v : S4096.Idx → α) (q : Fin 4096) (k : Fin 256) :
    broadcastInDim S4096x256 ![0, 1] Facts₀.bcast_S4096x1_S4096x256_0_1
      (broadcastInDim S4096x1 ![0] Facts₀.bcast_S4096_S4096x1_0 v) (ix2 q k) = v (ix1 q) := by
  refine (broadcastInDim_apply _ _ _ (ix2 q k) (ix2 q (0 : Fin 1)) fun a => ?_).trans (col_apply v q)
  match a with
  | ⟨0, _⟩ =>
    show q.val = if (4096 : Nat) = 1 then 0 else q.val
    rw [if_neg (by decide)]
  | ⟨1, _⟩ =>
    show (0 : Nat) = if (1 : Nat) = 1 then 0 else k.val
    rw [if_pos rfl]

/-- A non-negative query word is its own table index. -/
theorem wrapIdx_apply (tgt : IVec S4096 32) (q : Fin 4096) (h : 0 ≤ (tgt (ix1 q)).toInt) :
    wrapIdx tgt (ix2 q (0 : Fin 1)) = tgt (ix1 q) := by
  unfold wrapIdx
  rw [col_apply]
  show Scalar.select (IntOp.cmpi .slt (tgt (ix1 q)) 0#32) _ (tgt (ix1 q)) = tgt (ix1 q)
  have hc : IntOp.cmpi .slt (tgt (ix1 q)) 0#32 = 0#1 := by
    unfold IntOp.cmpi
    show BitVec.ofBool ((tgt (ix1 q)).slt 0#32) = 0#1
    have : (tgt (ix1 q)).slt 0#32 = false := by
      rw [BitVec.slt, decide_eq_false_iff_not]
      have h0 : (0#32 : BitVec 32).toInt = 0 := by decide
      rw [h0]; omega
    rw [this]; rfl
  rw [hc, select_zero]

/-- The counts at `q`: column 256 of the region's result. -/
theorem cnts_apply (sc : FVec Ideal S4096x384 .f32) (q : Fin 4096) :
    cnts sc (ix1 q) = sc (ix2 q (⟨256, by omega⟩ : Fin 384)) := by
  unfold cnts
  refine (shapeCast_apply _ _ (ix1 q) (ix2 q (0 : Fin 1)) ?_).trans ?_
  · rw [Shape.rowMajor_val_two, Shape.rowMajor_val_one]
    show q.val * 1 + 0 = q.val
    omega
  · refine extractStridedSlice_apply _ sc _ (ix2 q (0 : Fin 1)) (ix2 q (⟨256, by omega⟩ : Fin 384)) fun a => ?_
    match a with
    | ⟨0, _⟩ => show q.val = 0 + q.val; omega
    | ⟨1, _⟩ => show (256 : Nat) = 256 + 0; rfl

/-- The word of the float one denotes the extended real one. -/
theorem ofBits_one_f32 : Ideal.ofBits .f32 0x3F800000#32 = 1 := by
  simp [Ideal.ofBits, Ideal.ieee, -EReal.coe_mul]; norm_num

/-- The sums at `(q, k)`: column `k` of the region's result. -/
theorem sums_apply (sc : FVec Ideal S4096x384 .f32) (q : Fin 4096) (k : Fin 256) :
    extractStridedSlice S4096x256 ![0, 0] sc Facts₀.slices_S4096x384_S4096x256_0_0 (ix2 q k)
      = sc (ix2 q (⟨k.val, by omega⟩ : Fin 384)) := by
  refine extractStridedSlice_apply _ sc _ (ix2 q k) (ix2 q (⟨k.val, by omega⟩ : Fin 384)) fun a => ?_
  match a with
  | ⟨0, _⟩ => show q.val = 0 + q.val; omega
  | ⟨1, _⟩ => show k.val = 0 + k.val; omega

/-- The comparison "the count is positive" as a bit. -/
theorem cmp_ogt_zero (a : EReal) : Ideal.cmp .ogt a 0 = if 0 < a then 1#1 else 0#1 := by
  unfold Ideal.cmp
  by_cases h : 0 < a
  · rw [if_pos h]; simp [h]
  · rw [if_neg h]; simp [h]

/-- The new row of query `q` at column `k`, the fallback still a gather. -/
theorem newRows_apply_gather (sc : FVec Ideal S4096x384 .f32) (center : FVec Ideal S50001x256 .f32) (tgt : IVec S4096 32)
    (q : Fin 4096) (k : Fin 256) :
    newRows (F := Ideal) sc center tgt (ix2 q k)
      = Cert.Spec.rowRule (sc (ix2 q (⟨256, by omega⟩ : Fin 384))) (sc (ix2 q (⟨k.val, by omega⟩ : Fin 384)))
          (Host.gather gather_S50001x256_S4096x1_S4096x256_1_0_n_n_0_1_1256 center (wrapIdx tgt) (ix2 q k)) := by
  have hz : broadcastInDim S4096 ![] Facts₀.bcast_S_S4096 (constant (F := Ideal) S_ .f32 0x00000000#32) (ix1 q) = (0 : EReal) := by
    show Ideal.ofBits .f32 0x00000000#32 = 0
    simp [Ideal.ofBits, Ideal.ieee]
  have ho : broadcastInDim S4096 ![] Facts₀.bcast_S_S4096 (id (constant (F := Ideal) S_ .f32 0x3F800000#32)) (ix1 q) = (1 : EReal) := by
    show Ideal.ofBits .f32 0x3F800000#32 = 1
    exact ofBits_one_f32
  unfold newRows
  rw [select_apply, rows_apply, cmpf_apply, cnts_apply, hz]
  show Scalar.select (Ideal.cmp .ogt (sc (ix2 q (⟨256, by omega⟩ : Fin 384))) 0)
      (Ideal.div (extractStridedSlice S4096x256 ![0, 0] sc Facts₀.slices_S4096x384_S4096x256_0_0 (ix2 q k))
        (broadcastInDim S4096x256 ![0, 1] Facts₀.bcast_S4096x1_S4096x256_0_1 (broadcastInDim S4096x1 ![0] Facts₀.bcast_S4096_S4096x1_0
          (select (cmpf (F := Ideal) .ogt (cnts sc) (broadcastInDim S4096 ![] Facts₀.bcast_S_S4096 (constant (F := Ideal) S_ .f32 0x00000000#32))) (cnts sc)
            (broadcastInDim S4096 ![] Facts₀.bcast_S_S4096 (id (constant (F := Ideal) S_ .f32 0x3F800000#32))))) (ix2 q k))) _ = _
  rw [sums_apply, rows_apply, select_apply, cmpf_apply, cnts_apply, hz, ho]
  show Scalar.select (Ideal.cmp .ogt (sc (ix2 q (⟨256, by omega⟩ : Fin 384))) 0)
      (Ideal.div _ (Scalar.select (Ideal.cmp .ogt (sc (ix2 q (⟨256, by omega⟩ : Fin 384))) 0) _ _)) _ = _
  rw [cmp_ogt_zero]
  unfold Cert.Spec.rowRule
  by_cases h : 0 < sc (ix2 q (⟨256, by omega⟩ : Fin 384))
  · rw [if_pos h, if_pos h, if_pos h, select_one, select_one]
  · rw [if_neg h, if_neg h, select_zero]

/-- The table read at a query's class: where the query's word read signed is `c`, the table's row `c`. -/
theorem fallback_apply (center : FVec Ideal S50001x256 .f32) (tgt : IVec S4096 32) (q : Fin 4096) (k : Fin 256) (c : Fin 50001)
    (hq : Cert.Spec.lands (tgt (ix1 q)) c) :
    Host.gather gather_S50001x256_S4096x1_S4096x256_1_0_n_n_0_1_1256 center (wrapIdx tgt) (ix2 q k) = center (ix2 c k) := by
  unfold Cert.Spec.lands at hq
  have hpos : 0 ≤ (tgt (ix1 q)).toInt := by rw [hq]; exact Int.natCast_nonneg _
  rw [Cert.LibScatterLand.gather_rows_apply (by decide) gather_S50001x256_S4096x1_S4096x256_1_0_n_n_0_1_1256 rfl rfl rfl rfl rfl rfl
    center (wrapIdx tgt) q k]
  congr 1
  have hc := c.isLt
  have e : (wrapIdx tgt (ix2 q (0 : Fin 1))).toInt.toNat = c.val := by
    rw [wrapIdx_apply tgt q hpos, hq, Int.toNat_natCast]
  congr 1
  apply Fin.ext
  show min (wrapIdx tgt (ix2 q (0 : Fin 1))).toInt.toNat (50001 - 1) = c.val
  rw [e]
  omega

/-- THE RESULT AT `(c, d)`: the table's entry where no query's word is `c`, else the rule applied to a query whose word is `c`. -/
theorem ktail_apply (sc : FVec Ideal S4096x384 .f32) (center : FVec Ideal S50001x256 .f32) (tgt : IVec S4096 32)
    (hpos : ∀ q : Fin 4096, 0 ≤ (tgt (ix1 q)).toInt) (c : Fin 50001) (d : Fin 256) :
    ((∀ q : Fin 4096, ¬Cert.Spec.lands (tgt (ix1 q)) c) ∧ ktail (F := Ideal) sc center tgt (ix2 c d) = center (ix2 c d)) ∨
    (∃ q : Fin 4096, Cert.Spec.lands (tgt (ix1 q)) c ∧
      ktail (F := Ideal) sc center tgt (ix2 c d)
        = Cert.Spec.rowRule (sc (ix2 q (⟨256, by omega⟩ : Fin 384))) (sc (ix2 q (⟨d.val, by omega⟩ : Fin 384))) (center (ix2 c d))) := by
  unfold ktail
  rcases Cert.LibScatterSet.scatter_set_apply scatter_S50001x256_S4096x1_S4096x256_1_0_0_1 center (wrapIdx tgt)
      (newRows (F := Ideal) sc center tgt) (ix2 c d) with ⟨hno, hval⟩ | ⟨j, hland, hval⟩
  · -- no update position lands on `(c, d)`: in particular none of the positions `(q, d)`
    refine Or.inl ⟨fun q hq => ?_, hval⟩
    refine hno (ix2 q d) ((Cert.LibScatterLand.resultIdx?_rows scatter_S50001x256_S4096x1_S4096x256_1_0_0_1 rfl rfl rfl rfl
      (wrapIdx tgt) q d c d).2 ⟨?_, rfl⟩)
    rw [wrapIdx_apply tgt q (hpos q)]
    exact hq
  · -- the position `(q, k)` that lands on `(c, d)` has `k = d` and its query's word read signed is `c`
    obtain ⟨q, k, rfl⟩ : ∃ q k, j = ix2 q k := ⟨j 0, j 1, eq_ix2 j⟩
    obtain ⟨hq, rfl⟩ := (Cert.LibScatterLand.resultIdx?_rows scatter_S50001x256_S4096x1_S4096x256_1_0_0_1 rfl rfl rfl rfl
      (wrapIdx tgt) q k c d).1 hland
    rw [wrapIdx_apply tgt q (hpos q)] at hq
    refine Or.inr ⟨q, hq, ?_⟩
    rw [hval, newRows_apply_gather, fallback_apply center tgt q k c hq]

end Cert.KernelIdeal.KTailRead

end
-- ==== Proof.RefVal.lean ====
/-
  THE REFERENCE'S RESULT AT AN INDEX, over the extended reals, for query words that are non-negative. Class `c`'s sums and count are the
  scatter-adds of the rows and of ones at the rows' class words: the entry plus the updates landing there, from zero (`Cert.Spec.classSum`,
  `Cert.Spec.classCount`). The class is marked present when some query's word is `c` (a scatter of `true` into `false`). Row `c` of the
  result is the table's where the class is not present; where it is, the rule of `Cert.Spec.rowRule` applied to the class's count, its sum
  at `d` and the table's entry.
-/
import proofs.«406712_j1743756722487_1_alg».proof.Proof.RefRead
import proofs.«406712_j1743756722487_1_alg».proof.Proof.Spec
import proofs.«406712_j1743756722487_1_alg».proof.Proof.LibScatterSet
import proofs.«406712_j1743756722487_1_alg».proof.Proof.LibScatterLand
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open Idealize.ShloMosaic Idealize.ShloMosaic.ValueIdx

namespace Cert.ReferenceIdeal.RefVal

open Cert.ReferenceIdeal Cert.ReferenceIdeal.ReadP

open scoped BigOperators

/-- A rank-1 index set is its one coordinate's range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The column of start indices read at row `n`: the row's class word. -/
theorem start_rows (x2 : IVec S262144 32) (n : Fin 262144) :
    val_main_v1 (F := Ideal) x2 (ix2 n (0 : Fin 1)) = x2 (ix1 n) := by
  rw [val_main_v1_apply]
  exact congrArg x2 (funext fun a => by match a with | ⟨0, _⟩ => rfl)

/-- The sums' scatter at `(c, d)`: from zero, the updates landing there are the entries at column `d` of the rows landing on `c`. -/
theorem v2_apply (x0 : FVec Ideal S262144x256 .f32) (x2 : IVec S262144 32) (c : Fin 50001) (d : Fin 256) :
    val_main_v2 (F := Ideal) x0 x2 (ix2 c d) = Cert.Spec.classSum x0 x2 c d := by
  have h : val_main_v2 (F := Ideal) x0 x2
      = Ideal.hostScatterAdd scatter_S50001x256_S262144x1_S262144x256_1_0_0_1 (val_main_v0 (F := Ideal)) (val_main_v1 (F := Ideal) x2) x0 := rfl
  rw [h]
  unfold Ideal.hostScatterAdd
  have hz : val_main_v0 (F := Ideal) (ix2 c d) = 0 := by
    rw [val_main_v0_apply, val_main_cst_apply]
    exact Ideal.ofBits_zero_f32
  have hrows : ∀ (n : Fin 262144) (k : Fin 256),
      scatter_S50001x256_S262144x1_S262144x256_1_0_0_1.resultIdx? (ix2 n k) (val_main_v1 (F := Ideal) x2) = some (ix2 c d)
        ↔ Cert.Spec.lands (x2 (ix1 n)) c ∧ k = d := by
    intro n k
    rw [Cert.LibScatterLand.resultIdx?_rows scatter_S50001x256_S262144x1_S262144x256_1_0_0_1 rfl rfl rfl rfl, start_rows]
    exact Iff.rfl
  rw [hz, zero_add, Finset.sum_filter, sum_idx2]
  unfold Cert.Spec.classSum
  rw [Finset.sum_filter]
  refine Finset.sum_congr rfl fun n _ => ?_
  by_cases hl : Cert.Spec.lands (x2 (ix1 n)) c
  · rw [if_pos hl, Finset.sum_eq_single d]
    · rw [if_pos ((hrows n d).2 ⟨hl, rfl⟩)]
    · intro k _ hk
      rw [if_neg (fun e => hk ((hrows n k).1 e).2)]
    · intro h'
      exact absurd (Finset.mem_univ d) h'
  · rw [if_neg hl]
    exact Finset.sum_eq_zero fun k _ => if_neg (fun e => hl ((hrows n k).1 e).1)

/-- The word of one, as an extended real. -/
theorem ofBits_one_f32 : Ideal.ofBits .f32 0x3F800000#32 = 1 := by
  simp [Ideal.ofBits, Ideal.ieee, -EReal.coe_mul]; norm_num

/-- The counts' column of start indices read at row `n`: the row's class word. -/
theorem start_flat (x2 : IVec S262144 32) (n : Fin 262144) :
    val_main_v5 (F := Ideal) x2 (ix2 n (0 : Fin 1)) = x2 (ix1 n) := by
  rw [val_main_v5_apply]
  exact congrArg x2 (funext fun a => by match a with | ⟨0, _⟩ => rfl)

/-- The counts' scatter at `c`: from zero, a one for each row landing on `c`. -/
theorem v6_apply (x2 : IVec S262144 32) (c : Fin 50001) :
    val_main_v6 (F := Ideal) x2 (ix1 c) = Cert.Spec.classCount x2 c := by
  have h : val_main_v6 (F := Ideal) x2
      = Ideal.hostScatterAdd scatter_S50001_S262144x1_S262144_n_0_0_1 (val_main_v4 (F := Ideal)) (val_main_v5 (F := Ideal) x2)
          (val_main_v3 (F := Ideal)) := rfl
  rw [h]
  unfold Ideal.hostScatterAdd
  have hz : val_main_v4 (F := Ideal) (ix1 c) = 0 := by
    rw [val_main_v4_apply, val_main_cst_1_apply]
    exact Ideal.ofBits_zero_f32
  have hone : ∀ j : S262144.Idx, val_main_v3 (F := Ideal) j = 1 := by
    intro j
    rw [val_main_v3_apply, val_main_cst_0_apply]
    exact ofBits_one_f32
  have hflat : ∀ n : Fin 262144,
      scatter_S50001_S262144x1_S262144_n_0_0_1.resultIdx? (ix1 n) (val_main_v5 (F := Ideal) x2) = some (ix1 c)
        ↔ Cert.Spec.lands (x2 (ix1 n)) c := by
    intro n
    rw [Cert.LibScatterLand.resultIdx?_flat scatter_S50001_S262144x1_S262144_n_0_0_1 rfl rfl rfl rfl, start_flat]
    exact Iff.rfl
  rw [hz, zero_add, Finset.sum_filter, sum_idx1]
  unfold Cert.Spec.classCount
  rw [Finset.sum_filter]
  refine Finset.sum_congr rfl fun n _ => ?_
  rw [hone]
  by_cases hl : Cert.Spec.lands (x2 (ix1 n)) c
  · rw [if_pos hl, if_pos ((hflat n).2 hl)]
  · rw [if_neg hl, if_neg (fun e => hl ((hflat n).1 e))]

/-- The queries' column of start indices read at query `q`, for a non-negative word: the word itself (the wrap of a negative word is
    not taken). -/
theorem start_query (x3 : IVec S4096 32) (q : Fin 4096) (hq : 0 ≤ (x3 (ix1 q)).toInt) :
    val_main_v19 (F := Ideal) x3 (ix2 q (0 : Fin 1)) = x3 (ix1 q) := by
  have hi : idx_main_v19 (ix2 q (0 : Fin 1)) = ix1 q := funext fun a => by match a with | ⟨0, _⟩ => rfl
  rw [val_main_v19_apply, hi, val_main_v18_apply, val_main_v15_apply, val_main_v14_apply, val_main_c_4_apply]
  have hc : IntOp.cmpi .slt (x3 (ix1 q)) 0#32 = 0#1 := by
    show BitVec.ofBool ((x3 (ix1 q)).slt 0#32) = 0#1
    have hf : (x3 (ix1 q)).slt 0#32 = false := by
      rw [BitVec.slt_eq_decide, BitVec.toInt_zero]
      exact decide_eq_false (not_lt.2 hq)
    rw [hf]
    rfl
  rw [hc]
  exact select_zero _ _

/-- The presence marks' scatter at `c`: the mark is set exactly when some query's word lands on `c`. -/
theorem v21_apply (x3 : IVec S4096 32) (hpos : ∀ q : Fin 4096, 0 ≤ (x3 (ix1 q)).toInt) (c : Fin 50001) :
    val_main_v21 (F := Ideal) x3 (ix1 c) = 1#1 ↔ ∃ q : Fin 4096, Cert.Spec.lands (x3 (ix1 q)) c := by
  have hflat : ∀ q : Fin 4096,
      scatter_S50001_S4096x1_S4096_n_0_0_1.resultIdx? (ix1 q) (val_main_v19 (F := Ideal) x3) = some (ix1 c)
        ↔ Cert.Spec.lands (x3 (ix1 q)) c := by
    intro q
    rw [Cert.LibScatterLand.resultIdx?_flat scatter_S50001_S4096x1_S4096_n_0_0_1 rfl rfl rfl rfl, start_query x3 q (hpos q)]
    exact Iff.rfl
  unfold val_main_v21
  rcases Cert.LibScatterSet.scatter_set_apply scatter_S50001_S4096x1_S4096_n_0_0_1 (val_main_v13 (F := Ideal))
      (val_main_v19 (F := Ideal) x3) (val_main_v20 (F := Ideal)) (ix1 c) with ⟨hno, hval⟩ | ⟨j, hj, hval⟩
  · rw [hval, val_main_v13_apply, val_main_c_apply]
    constructor
    · intro h
      exact absurd h (by decide)
    · rintro ⟨q, hq⟩
      exact absurd ((hflat q).2 hq) (hno (ix1 q))
  · rw [hval, val_main_v20_apply, val_main_c_6_apply]
    refine ⟨fun _ => ⟨j 0, ?_⟩, fun _ => rfl⟩
    rw [eq_ix1 j] at hj
    exact (hflat (j 0)).1 hj

/-- A one-bit word and the set bit: the word. -/
theorem andi_one (b : BitVec 1) : IntOp.andi b 1#1 = b := by
  rcases BitVec.eq_zero_or_eq_one b with h | h <;> rw [h] <;> rfl

/-- A one-bit word and the clear bit: the clear bit. -/
theorem andi_zero (b : BitVec 1) : IntOp.andi b 0#1 = 0#1 := by
  rcases BitVec.eq_zero_or_eq_one b with h | h <;> rw [h] <;> rfl

/-- The float compare "greater than the zero word" over the extended reals: the bit of `0 < a`. -/
theorem cmpf_ogt_zero (a : Ideal .f32) :
    FloatOps.cmpf (F := Ideal) .ogt a (FloatOps.ofBits .f32 0x00000000#32) = BitVec.ofBool (decide (0 < a)) := by
  show BitVec.ofBool (decide (Ideal.ofBits .f32 0x00000000#32 < a)) = _
  rw [Ideal.ofBits_zero_f32]

open Classical in
theorem ref_apply (x0 : FVec Ideal S262144x256 .f32) (x1 : FVec Ideal S50001x256 .f32) (x2 : IVec S262144 32) (x3 : IVec S4096 32)
    (hpos : ∀ q : Fin 4096, 0 ≤ (x3 (ix1 q)).toInt) (c : Fin 50001) (d : Fin 256) :
    val_main_v26 (F := Ideal) x0 x1 x2 x3 (ix2 c d)
      = if ∃ q : Fin 4096, Cert.Spec.lands (x3 (ix1 q)) c
        then Cert.Spec.rowRule (Cert.Spec.classCount x2 c) (Cert.Spec.classSum x0 x2 c d) (x1 (ix2 c d))
        else x1 (ix2 c d) := by
  have i1 : idx_main_v25 (idx_main_call1_v0 (ix2 c d)) = ix1 c := funext fun a => by match a with | ⟨0, _⟩ => rfl
  have i2 : idx_main_v10 (idx_main_v11 (ix2 c d)) = ix1 c := funext fun a => by match a with | ⟨0, _⟩ => rfl
  rw [val_main_v26_apply, val_main_call1_v0_apply, val_main_v25_apply, i1, val_main_v24_apply, val_main_v23_apply,
    val_main_v22_apply, val_main_cst_7_apply, val_main_v12_apply, val_main_v11_apply, val_main_v10_apply, i2,
    val_main_v9_apply, val_main_v8_apply, val_main_v7_apply, val_main_cst_2_apply, val_main_call0_v1_apply,
    val_main_call0_v0_apply, val_main_cst_3_apply, v2_apply, v6_apply, cmpf_ogt_zero]
  show Scalar.select (IntOp.andi (val_main_v21 (F := Ideal) x3 (ix1 c)) (BitVec.ofBool (decide (0 < Cert.Spec.classCount x2 c))))
      (Ideal.div (Cert.Spec.classSum x0 x2 c d)
        (Scalar.select (BitVec.ofBool (decide (0 < Cert.Spec.classCount x2 c))) (Cert.Spec.classCount x2 c)
          (Ideal.ofBits .f32 0x3F800000#32)))
      (x1 (ix2 c d)) = _
  unfold Cert.Spec.rowRule
  by_cases hc : 0 < Cert.Spec.classCount x2 c
  · rw [decide_eq_true hc, if_pos hc, if_pos hc]
    show Scalar.select (IntOp.andi (val_main_v21 (F := Ideal) x3 (ix1 c)) 1#1)
      (Ideal.div (Cert.Spec.classSum x0 x2 c d) (Scalar.select 1#1 (Cert.Spec.classCount x2 c) (Ideal.ofBits .f32 0x3F800000#32)))
      (x1 (ix2 c d)) = _
    rw [andi_one, select_one]
    by_cases hq : ∃ q : Fin 4096, Cert.Spec.lands (x3 (ix1 q)) c
    · rw [if_pos hq, (v21_apply x3 hpos c).2 hq, select_one]
    · rw [if_neg hq, eq_zero_of_ne_one (fun h => hq ((v21_apply x3 hpos c).1 h)), select_zero]
  · rw [decide_eq_false hc, if_neg hc]
    show Scalar.select (IntOp.andi (val_main_v21 (F := Ideal) x3 (ix1 c)) 0#1) _ (x1 (ix2 c d)) = _
    rw [andi_zero, select_zero]
    by_cases hq : ∃ q : Fin 4096, Cert.Spec.lands (x3 (ix1 q)) c
    · rw [if_pos hq]
    · rw [if_neg hq]

end Cert.ReferenceIdeal.RefVal

end
-- ==== Proof.Pre.lean ====
/-
  WHAT THE PRECONDITION GIVES THE VALUE PROOF: every query word, read as a signed integer, is non-negative. The precondition is a
  conjunction of three "all" tests, each an `and`-reduction of a comparison; its last conjunct compares the query words with zero, signed.
-/
import proofs.«406712_j1743756722487_1_alg».proof.Defs
import proofs.«406712_j1743756722487_1_alg».proof.Proof.Gen.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreRead

/-- The rank-0 shape has one index. -/
private instance : Subsingleton Cert.Pre_finite_inputs.S_.Idx := ⟨fun a b => funext fun d => d.elim0⟩

/-- From the printed precondition at all ones: every query word is non-negative as a signed integer. -/
theorem tgt_nonneg {F : FTy → Type} [FloatOps F]
    (a0 : FVec F Cert.Pre_finite_inputs.S262144x256 .f32) (a1 : FVec F Cert.Pre_finite_inputs.S50001x256 .f32)
    (a2 : IVec Cert.Pre_finite_inputs.S262144 32) (a3 : IVec Cert.Pre_finite_inputs.S4096 32)
    (h : Cert.Pre_finite_inputs.fn (F := F) a0 a1 a2 a3 = fun _ => 1#1) (q : Fin 4096) :
    0 ≤ (a3 (ix1 q)).toInt := by
  have h0 := congrFun h ValueIdx.ix0
  dsimp only [Cert.Pre_finite_inputs.fn] at h0
  -- the conjunction at its one index: the last conjunct is the "all" over the query words
  have h1 := (IntOp.andi_eq_one.1 h0).2
  -- every element of the compared array is 1
  have h2 := Host.reduce_andi_all _ _ _ _ _ h1 (ix1 q)
  -- the signed comparison, read back: the zero word is below the query word
  have h3 := IntOp.cmpi_sge.1 h2
  exact h3

end Cert.PreRead

end
-- ==== Proof.lean ====
/-
  The proof of `Cert.Claim`: a scatter-mean into a class table.

  The reference sums the rows of `x` by class (a row belongs to class `c` when its class word read as a signed integer is `c`), counts
  them, and overwrites row `c` of the table by sum / count where some query names `c` and the count is positive. The kernel computes,
  for each of the 4096 queries, the sum and the count of the rows whose class word EQUALS the query's word, as one product of a one-hot
  matrix with the rows augmented by a ones column, accumulated over 256 blocks of 1024 rows; the program then forms sum / count (or the
  table's own row where the count is zero) and writes each query's row into the table at the query's class.

  Under the precondition that the query words are non-negative (the index of a table of 50001 rows: a negative one is wrapped by the
  writes but compared unwrapped by the kernel), a query's word names class `c` exactly when its signed reading is `c`, and then
  "equals the query's word" and "lands on `c`" are the same condition on a row's class word. So at a query naming `c` the kernel's sum and
  count are the class's, both programs apply the same rule to them, and where several queries name one class their rows are equal,
  whichever write wins. Where no query names `c` both leave the table's row. Zero times anything is zero on the extended reals and
  sums re-associate freely, so the finiteness of the inputs is not used.

  The frames of the two kernel programs are the generated ones; the reference's is its run with the result dropped; the ideal pass
  rewrote nothing, so the idealization claim is trivial.
-/
import proofs.«406712_j1743756722487_1_alg».proof.Defs
import proofs.«406712_j1743756722487_1_alg».proof.Proof.Gen.Kernel
import proofs.«406712_j1743756722487_1_alg».proof.Proof.Gen.Kernel.Frame
import proofs.«406712_j1743756722487_1_alg».proof.Proof.Gen.KernelIdeal
import proofs.«406712_j1743756722487_1_alg».proof.Proof.Gen.KernelIdeal.Frame
import proofs.«406712_j1743756722487_1_alg».proof.Proof.Gen.ReferenceIdeal
import proofs.«406712_j1743756722487_1_alg».proof.Proof.Gen.Pre_finite_inputs
import proofs.«406712_j1743756722487_1_alg».proof.Proof.Spec
import proofs.«406712_j1743756722487_1_alg».proof.Proof.KTail
import proofs.«406712_j1743756722487_1_alg».proof.Proof.KAcc
import proofs.«406712_j1743756722487_1_alg».proof.Proof.KTailRead
import proofs.«406712_j1743756722487_1_alg».proof.Proof.RefRun
import proofs.«406712_j1743756722487_1_alg».proof.Proof.RefRead
import proofs.«406712_j1743756722487_1_alg».proof.Proof.RefVal
import proofs.«406712_j1743756722487_1_alg».proof.Proof.Pre
import Idealize.ShloMosaic.Adequacy
import Idealize.ShloMosaic.Init

noncomputable section

namespace Cert.Proof

open Idealize.ShloMosaic Idealize.SL.Sem Idealize.ShloMosaic.ValueIdx

/-- THE BRIDGE, at one entry `(cc, d)` of the result: the kernel program's chain over the region's result and the reference's stage
    agree, for non-negative query words. -/
theorem bridge (m : (ℓ : Loc Cert.KernelIdeal.nD Cert.KernelIdeal.τ Cert.KernelIdeal.sig) → Buf (Elt Ideal) ℓ)
    (c : Dev Cert.KernelIdeal.nD)
    (hpos : ∀ q : Fin 4096, 0 ≤ (m ((c.tc : Thread Cert.KernelIdeal.nD Cert.KernelIdeal.τ).loc Cert.KernelIdeal.main_arg3) (ix1 q)).toInt)
    (cc : Fin 50001) (d : Fin 256) :
    Cert.ReferenceIdeal.ReadP.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (ix2 cc d)
      = Cert.KernelIdeal.KTail.ktail (F := Ideal) (Cert.KernelIdeal.KVal.scArr m c)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) (ix2 cc d) := by
  rw [Cert.ReferenceIdeal.RefVal.ref_apply _ _ _ _ hpos cc d]
  rcases Cert.KernelIdeal.KTailRead.ktail_apply (Cert.KernelIdeal.KVal.scArr m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) hpos cc d with ⟨hno, hk⟩ | ⟨q, hq, hk⟩
  · -- no query names the class: both leave the table's row
    rw [hk, if_neg (fun ⟨q, hq⟩ => hno q hq)]
  · -- query `q` names the class: its sum and count are the class's
    rw [hk, if_pos ⟨q, hq⟩, Cert.KernelIdeal.KAcc.scArr_apply m c q ⟨256, by omega⟩,
      Cert.KernelIdeal.KAcc.scArr_apply m c q ⟨d.val, by omega⟩,
      Cert.Spec.sc_eq_classCount _ _ _ q cc hq, Cert.Spec.sc_eq_classSum _ _ _ q cc hq d]

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the table rewritten by the same rule: the kernel program's run ends at its chain over the region's result,
    the reference's at its composed term of arguments that agree, and the two are equal entry by entry (`bridge`). -/
theorem algebraic : Cert.algebraic_KernelIdeal_ReferenceIdeal := by
  intro m ρ m' ρ' hpre hagree
  refine ⟨fun c => Cert.KernelIdeal.KTail.ktail (F := Ideal) (Cert.KernelIdeal.KVal.scArr m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KTail.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2, Cert.ReferenceIdeal.ReadP.val_main_v26_eq]
  funext i
  obtain ⟨cc, d, rfl⟩ : ∃ (cc : Fin 50001) (d : Fin 256), i = ix2 cc d := ⟨i 0, i 1, eq_ix2 i⟩
  exact bridge m c (fun q => Cert.PreRead.tgt_nonneg _ _ _ _ (hpre c) q) cc d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
